-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S128x256 : Shape := ⟨2, ![128, 256]⟩
abbrev S128 : Shape := ⟨1, ![128]⟩
abbrev S256x128 : Shape := ⟨2, ![256, 128]⟩
abbrev S256 : Shape := ⟨1, ![256]⟩
abbrev S384x256 : Shape := ⟨2, ![384, 256]⟩
abbrev S384 : Shape := ⟨1, ![384]⟩
abbrev S1x800000 : Shape := ⟨2, ![1, 800000]⟩
abbrev S800000 : Shape := ⟨1, ![800000]⟩
abbrev S_ : Shape := ⟨0, ![]⟩

class Facts : Prop where
  slices_S2x800000_S1x800000_0_0 : S2x800000.Slices ![0, 0] S1x800000
  shapeCasts_S1x800000_S800000 : S1x800000.ShapeCasts S800000
  bcast_S_S50000x256 : S_.BroadcastsInDim S50000x256 (![] : Fin 0 → Fin S50000x256.rank)
  reducesTo_S50000x256_S_d0_1 : S50000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S384x256 : S_.BroadcastsInDim S384x256 (![] : Fin 0 → Fin S384x256.rank)
  reducesTo_S384x256_S_d0_1 : S384x256.ReducesTo [0, 1] S_
  bcast_S_S384 : S_.BroadcastsInDim S384 (![] : Fin 0 → Fin S384.rank)
  reducesTo_S384_S_d0 : S384.ReducesTo [0] S_
  bcast_S_S800000 : S_.BroadcastsInDim S800000 (![] : Fin 0 → Fin S800000.rank)
  reducesTo_S800000_S_d0 : S800000.ReducesTo [0] S_

variable [Facts]

def fn_part3 {F : FTy → Type} [FloatOps F] (main_v45 : IVec S_ 1) (main_v50 : IVec S800000 1) (main_c_18 : IVec S_ 1) : IVec S_ 1 :=
  let main_v51 : IVec S_ 1 := (fun x v => Host.reduce IntOp.andi x v reducesTo_S800000_S_d0 h_S_) main_v50 main_c_18
  let main_v52 : IVec S_ 1 := andi main_v45 main_v51
  main_v52

def fn_part2 {F : FTy → Type} [FloatOps F] (main_arg8 : FVec F S384x256 .f32) (main_arg9 : FVec F S384 .f32) (main_v1 : IVec S800000 32) (main_v30 : IVec S_ 1) (main_v33 : IVec S256x128 1) (main_c_11 : IVec S_ 1) : IVec S_ 1 :=
  let main_v34 : IVec S_ 1 := (fun x v => Host.reduce IntOp.andi x v reducesTo_S256x128_S_d0_1 h_S_) main_v33 main_c_11
  let main_v35 : IVec S_ 1 := andi main_v30 main_v34
  let main_v36 : FVec F S384x256 .f32 := Host.absf main_arg8
  let main_cst_12 : FVec F S_ .f32 := constant S_ .f32 0x7F800000#32
  let main_v37 : FVec F S384x256 .f32 := broadcastInDim S384x256 ![] bcast_S_S384x256 main_cst_12
  let main_v38 : IVec S384x256 1 := cmpf .olt main_v36 main_v37
  let main_c_13 : IVec S_ 1 := constantI S_ 1 1#1
  let main_v39 : IVec S_ 1 := (fun x v => Host.reduce IntOp.andi x v reducesTo_S384x256_S_d0_1 h_S_) main_v38 main_c_13
  let main_v40 : IVec S_ 1 := andi main_v35 main_v39
  let main_v41 : FVec F S384 .f32 := Host.absf main_arg9
  let main_cst_14 : FVec F S_ .f32 := constant S_ .f32 0x7F800000#32
  let main_v42 : FVec F S384 .f32 := broadcastInDim S384 ![] bcast_S_S384 main_cst_14
  let main_v43 : IVec S384 1 := cmpf .olt main_v41 main_v42
  let main_c_15 : IVec S_ 1 := constantI S_ 1 1#1
  let main_v44 : IVec S_ 1 := (fun x v => Host.reduce IntOp.andi x v reducesTo_S384_S_d0 h_S_) main_v43 main_c_15
  let main_v45 : IVec S_ 1 := andi main_v40 main_v44
  let main_c_16 : IVec S_ 32 := constantI S_ 32 0#32
  let main_v46 : IVec S800000 32 := broadcastInDim S800000 ![] bcast_S_S800000 main_c_16
  let main_v47 : IVec S800000 1 := cmpi .sge main_v1 main_v46
  let main_c_17 : IVec S_ 32 := constantI S_ 32 50000#32
  let main_v48 : IVec S800000 32 := broadcastInDim S800000 ![] bcast_S_S800000 main_c_17
  let main_v49 : IVec S800000 1 := cmpi .slt main_v1 main_v48
  let main_v50 : IVec S800000 1 := andi main_v47 main_v49
  let main_c_18 : IVec S_ 1 := constantI S_ 1 1#1
  fn_part3 (F := F) main_v45 main_v50 main_c_18

def fn_part1 {F : FTy → Type} [FloatOps F] (main_arg5 : FVec F S256x128 .f32) (main_arg6 : FVec F S256 .f32) (main_arg7 : FVec F S256x128 .f32) (main_arg8 : FVec F S384x256 .f32) (main_arg9 : FVec F S384 .f32) (main_v1 : IVec S800000 32) (main_v15 : IVec S_ 1) (main_v16 : FVec F S128x256 .f32) (main_cst_4 : FVec F S_ .f32) : IVec S_ 1 :=
  let main_v17 : FVec F S128x256 .f32 := broadcastInDim S128x256 ![] bcast_S_S128x256 main_cst_4
  let main_v18 : IVec S128x256 1 := cmpf .olt main_v16 main_v17
  let main_c_5 : IVec S_ 1 := constantI S_ 1 1#1
  let main_v19 : IVec S_ 1 := (fun x v => Host.reduce IntOp.andi x v reducesTo_S128x256_S_d0_1 h_S_) main_v18 main_c_5
  let main_v20 : IVec S_ 1 := andi main_v15 main_v19
  let main_v21 : FVec F S256x128 .f32 := Host.absf main_arg5
  let main_cst_6 : FVec F S_ .f32 := constant S_ .f32 0x7F800000#32
  let main_v22 : FVec F S256x128 .f32 := broadcastInDim S256x128 ![] bcast_S_S256x128 main_cst_6
  let main_v23 : IVec S256x128 1 := cmpf .olt main_v21 main_v22
  let main_c_7 : IVec S_ 1 := constantI S_ 1 1#1
  let main_v24 : IVec S_ 1 := (fun x v => Host.reduce IntOp.andi x v reducesTo_S256x128_S_d0_1 h_S_) main_v23 main_c_7
  let main_v25 : IVec S_ 1 := andi main_v20 main_v24
  let main_v26 : FVec F S256 .f32 := Host.absf main_arg6
  let main_cst_8 : FVec F S_ .f32 := constant S_ .f32 0x7F800000#32
  let main_v27 : FVec F S256 .f32 := broadcastInDim S256 ![] bcast_S_S256 main_cst_8
  let main_v28 : IVec S256 1 := cmpf .olt main_v26 main_v27
  let main_c_9 : IVec S_ 1 := constantI S_ 1 1#1
  let main_v29 : IVec S_ 1 := (fun x v => Host.reduce IntOp.andi x v reducesTo_S256_S_d0 h_S_) main_v28 main_c_9
  let main_v30 : IVec S_ 1 := andi main_v25 main_v29
  let main_v31 : FVec F S256x128 .f32 := Host.absf main_arg7
  let main_cst_10 : FVec F S_ .f32 := constant S_ .f32 0x7F800000#32
  let main_v32 : FVec F S256x128 .f32 := broadcastInDim S256x128 ![] bcast_S_S256x128 main_cst_10
  let main_v33 : IVec S256x128 1 := cmpf .olt main_v31 main_v32
  let main_c_11 : IVec S_ 1 := constantI S_ 1 1#1
  fn_part2 (F := F) main_arg8 main_arg9 main_v1 main_v30 main_v33 main_c_11

def fn {F : FTy → Type} [FloatOps F] (main_arg0 : FVec F S50000x256 .f32) (main_arg1 : IVec S2x800000 32) (main_arg2 : FVec F S128x256 .f32) (main_arg3 : FVec F S128 .f32) (main_arg4 : FVec F S128x256 .f32) (main_arg5 : FVec F S256x128 .f32) (main_arg6 : FVec F S256 .f32) (main_arg7 : FVec F S256x128 .f32) (main_arg8 : FVec F S384x256 .f32) (main_arg9 : FVec F S384 .f32) : IVec S_ 1 :=
  let main_v0 : IVec S1x800000 32 := (extractStridedSlice S1x800000 ![0, 0] · slices_S2x800000_S1x800000_0_0) main_arg1
  let main_v1 : IVec S800000 32 := shapeCast S800000 main_v0 shapeCasts_S1x800000_S800000
  let main_v2 : FVec F S50000x256 .f32 := Host.absf main_arg0
  let main_cst : FVec F S_ .f32 := constant S_ .f32 0x7F800000#32
  let main_v3 : FVec F S50000x256 .f32 := broadcastInDim S50000x256 ![] bcast_S_S50000x256 main_cst
  let main_v4 : IVec S50000x256 1 := cmpf .olt main_v2 main_v3
  let main_c : IVec S_ 1 := constantI S_ 1 1#1
  let main_v5 : IVec S_ 1 := (fun x v => Host.reduce IntOp.andi x v reducesTo_S50000x256_S_d0_1 h_S_) main_v4 main_c
  let main_v6 : FVec F S128x256 .f32 := Host.absf main_arg2
  let main_cst_0 : FVec F S_ .f32 := constant S_ .f32 0x7F800000#32
  let main_v7 : FVec F S128x256 .f32 := broadcastInDim S128x256 ![] bcast_S_S128x256 main_cst_0
  let main_v8 : IVec S128x256 1 := cmpf .olt main_v6 main_v7
  let main_c_1 : IVec S_ 1 := constantI S_ 1 1#1
  let main_v9 : IVec S_ 1 := (fun x v => Host.reduce IntOp.andi x v reducesTo_S128x256_S_d0_1 h_S_) main_v8 main_c_1
  let main_v10 : IVec S_ 1 := andi main_v5 main_v9
  let main_v11 : FVec F S128 .f32 := Host.absf main_arg3
  let main_cst_2 : FVec F S_ .f32 := constant S_ .f32 0x7F800000#32
  let main_v12 : FVec F S128 .f32 := broadcastInDim S128 ![] bcast_S_S128 main_cst_2
  let main_v13 : IVec S128 1 := cmpf .olt main_v11 main_v12
  let main_c_3 : IVec S_ 1 := constantI S_ 1 1#1
  let main_v14 : IVec S_ 1 := (fun x v => Host.reduce IntOp.andi x v reducesTo_S128_S_d0 h_S_) main_v13 main_c_3
  let main_v15 : IVec S_ 1 := andi main_v10 main_v14
  let main_v16 : FVec F S128x256 .f32 := Host.absf main_arg4
  let main_cst_4 : FVec F S_ .f32 := constant S_ .f32 0x7F800000#32
  fn_part1 (F := F) main_arg5 main_arg6 main_arg7 main_arg8 main_arg9 main_v1 main_v15 main_v16 main_cst_4
-- ==== Kernel.lean ====
abbrev S50000x256 : Shape := ⟨2, ![50000, 256]⟩
abbrev S2x800000 : Shape := ⟨2, ![2, 800000]⟩
abbrev S128x256 : Shape := ⟨2, ![128, 256]⟩
abbrev S128 : Shape := ⟨1, ![128]⟩
abbrev S256x128 : Shape := ⟨2, ![256, 128]⟩
abbrev S256 : Shape := ⟨1, ![256]⟩
abbrev S384x256 : Shape := ⟨2, ![384, 256]⟩
abbrev S384 : Shape := ⟨1, ![384]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x256 : Shape := ⟨2, ![800000, 256]⟩
abbrev S50000 : Shape := ⟨1, ![50000]⟩
abbrev S50000x1 : Shape := ⟨2, ![50000, 1]⟩
abbrev S50000x128 : Shape := ⟨2, ![50000, 128]⟩
abbrev S2000x256 : Shape := ⟨2, ![2000, 256]⟩
abbrev S2000x1 : Shape := ⟨2, ![2000, 1]⟩
abbrev S2000x128 : Shape := ⟨2, ![2000, 128]⟩
abbrev S1x128 : Shape := ⟨2, ![1, 128]⟩
abbrev S800000x128 : Shape := ⟨2, ![800000, 128]⟩
abbrev S50000x384 : Shape := ⟨2, ![50000, 384]⟩
abbrev S2000x384 : Shape := ⟨2, ![2000, 384]⟩
abbrev S1x256 : Shape := ⟨2, ![1, 256]⟩
abbrev S256x384 : Shape := ⟨2, ![256, 384]⟩
abbrev S1x384 : Shape := ⟨2, ![1, 384]⟩

abbrev nBuf : Space → Nat
  | .hbm => 77
  | .vmem => 24
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S128x256, .f32⟩
  | .hbm, ⟨3, _⟩ => ⟨S128, .f32⟩
  | .hbm, ⟨4, _⟩ => ⟨S128x256, .f32⟩
  | .hbm, ⟨5, _⟩ => ⟨S256x128, .f32⟩
  | .hbm, ⟨6, _⟩ => ⟨S256, .f32⟩
  | .hbm, ⟨7, _⟩ => ⟨S256x128, .f32⟩
  | .hbm, ⟨8, _⟩ => ⟨S384x256, .f32⟩
  | .hbm, ⟨9, _⟩ => ⟨S384, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S1, .i32⟩
  | .hbm, ⟨23, _⟩ => ⟨S_, .i32⟩
  | .hbm, ⟨24, _⟩ => ⟨S800000x1, .i32⟩
  | .hbm, ⟨25, _⟩ => ⟨S800000x1, .i1⟩
  | .hbm, ⟨26, _⟩ => ⟨S1x1, .i32⟩
  | .hbm, ⟨27, _⟩ => ⟨S800000x1, .i32⟩
  | .hbm, ⟨28, _⟩ => ⟨S800000x1, .i1⟩
  | .hbm, ⟨29, _⟩ => ⟨S800000x1, .i1⟩
  | .hbm, ⟨30, _⟩ => ⟨S_, .i1⟩
  | .hbm, ⟨31, _⟩ => ⟨S800000, .i1⟩
  | .hbm, ⟨32, _⟩ => ⟨S800000x256, .f32⟩
  | .hbm, ⟨33, _⟩ => ⟨S800000x256, .i1⟩
  | .hbm, ⟨34, _⟩ => ⟨S_, .f32⟩
  | .hbm, ⟨35, _⟩ => ⟨S800000x256, .f32⟩
  | .hbm, ⟨36, _⟩ => ⟨S800000x256, .f32⟩
  | .hbm, ⟨37, _⟩ => ⟨S_, .f32⟩
  | .hbm, ⟨38, _⟩ => ⟨S50000x256, .f32⟩
  | .hbm, ⟨39, _⟩ => ⟨S800000x1, .i32⟩
  | .hbm, ⟨40, _⟩ => ⟨S50000x256, .f32⟩
  | .hbm, ⟨41, _⟩ => ⟨S_, .f32⟩
  | .hbm, ⟨42, _⟩ => ⟨S800000, .f32⟩
  | .hbm, ⟨43, _⟩ => ⟨S_, .f32⟩
  | .hbm, ⟨44, _⟩ => ⟨S50000, .f32⟩
  | .hbm, ⟨45, _⟩ => ⟨S800000x1, .i32⟩
  | .hbm, ⟨46, _⟩ => ⟨S50000, .f32⟩
  | .hbm, ⟨47, _⟩ => ⟨S50000x1, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S1, .i32⟩
  | .hbm, ⟨58, _⟩ => ⟨S_, .i32⟩
  | .hbm, ⟨59, _⟩ => ⟨S800000x1, .i32⟩
  | .hbm, ⟨60, _⟩ => ⟨S800000x1, .i1⟩
  | .hbm, ⟨61, _⟩ => ⟨S1x1, .i32⟩
  | .hbm, ⟨62, _⟩ => ⟨S800000x1, .i32⟩
  | .hbm, ⟨63, _⟩ => ⟨S800000x1, .i1⟩
  | .hbm, ⟨64, _⟩ => ⟨S800000x1, .i1⟩
  | .hbm, ⟨65, _⟩ => ⟨S_, .i1⟩
  | .hbm, ⟨66, _⟩ => ⟨S800000, .i1⟩
  | .hbm, ⟨67, _⟩ => ⟨S800000x128, .f32⟩
  | .hbm, ⟨68, _⟩ => ⟨S800000x128, .i1⟩
  | .hbm, ⟨69, _⟩ => ⟨S_, .f32⟩
  | .hbm, ⟨70, _⟩ => ⟨S800000x128, .f32⟩
  | .hbm, ⟨71, _⟩ => ⟨S800000x128, .f32⟩
  | .hbm, ⟨72, _⟩ => ⟨S_, .f32⟩
  | .hbm, ⟨73, _⟩ => ⟨S50000x128, .f32⟩
  | .hbm, ⟨74, _⟩ => ⟨S800000x1, .i32⟩
  | .hbm, ⟨75, _⟩ => ⟨S50000x128, .f32⟩
  | .hbm, ⟨76, _⟩ => ⟨S50000x384, .f32⟩
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S2000x256, .f32⟩
  | .local _ .vmem, ⟨5, _⟩ => ⟨S2000x256, .f32⟩
  | .local _ .vmem, ⟨6, _⟩ => ⟨S128x256, .f32⟩
  | .local _ .vmem, ⟨7, _⟩ => ⟨S128, .f32⟩
  | .local _ .vmem, ⟨8, _⟩ => ⟨S128x256, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S2000x128, .f32⟩
  | .local _ .vmem, ⟨16, _⟩ => ⟨S2000x128, .f32⟩
  | .local _ .vmem, ⟨17, _⟩ => ⟨S256x128, .f32⟩
  | .local _ .vmem, ⟨18, _⟩ => ⟨S256, .f32⟩
  | .local _ .vmem, ⟨19, _⟩ => ⟨S256x128, .f32⟩
  | .local _ .vmem, ⟨20, _⟩ => ⟨S384x256, .f32⟩
  | .local _ .vmem, ⟨21, _⟩ => ⟨S384, .f32⟩
  | .local _ .vmem, ⟨22, _⟩ => ⟨S2000x384, .f32⟩
  | .local _ .vmem, ⟨23, _⟩ => ⟨S2000x384, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v4 : Ref sig .tc := ⟨.hbm, 36, rfl⟩
abbrev main_cst : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_cst_0 : Ref sig .tc := ⟨.hbm, 41, rfl⟩
abbrev main_v8 : Ref sig .tc := ⟨.hbm, 42, rfl⟩
abbrev main_cst_1 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v14 : Ref sig .tc := ⟨.hbm, 71, rfl⟩
abbrev main_cst_2 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S384x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S384 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x384 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x256_0 : S800000.BroadcastsInDim S800000x256 (![0] : Fin 1 → Fin S800000x256.rank)
  bcast_S_S800000x256 : S_.BroadcastsInDim S800000x256 (![] : Fin 0 → Fin S800000x256.rank)
  bcast_S_S50000x256 : S_.BroadcastsInDim S50000x256 (![] : Fin 0 → Fin S50000x256.rank)
  bcast_S_S50000 : S_.BroadcastsInDim S50000 (![] : Fin 0 → Fin S50000.rank)
  shapeCasts_S50000_S50000x1 : S50000.ShapeCasts S50000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S2000x1_S2000x256 : S2000x1.Broadcasts S2000x256
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S2000x128_S2000x128 : S2000x128.ShapeCasts S2000x128
  broadcasts_S2000x1_S2000x128 : S2000x1.Broadcasts S2000x128
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S384x256_S384x256_0_0 : ∀ a, (![0, 0] : Fin 2 → Nat) a + S384x256.size a ≤ S384x256.size a
  h_S384x256 : 0 < S384x256.numel
  transposes_S384x256_p1_0_S256x384 : S384x256.Transposes [1, 0] S256x384
  inb_S384_S384_0 : ∀ a, (![0] : Fin 1 → Nat) a + S384.size a ≤ S384.size a
  h_S384 : 0 < S384.numel
  shapeCasts_S384_S1x384 : S384.ShapeCasts S1x384
  broadcasts_S1x384_S2000x384 : S1x384.Broadcasts S2000x384
  inb_S2000x384_S2000x384_0_0 : ∀ a, (![0, 0] : Fin 2 → Nat) a + S2000x384.size a ≤ S2000x384.size a
  h_S2000x384 : 0 < S2000x384.numel
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x384_S2000x384_1_0_0_1_n_n_wf : DotDims.WF S2000x256 S256x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S384x256.size a ≤ S384x256.size a
  hwx1_6 : ∀ i : grid1.Coords, EltTy.bits .f32 = 32 ∨ (Rect.block (s := S384x256) S384x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S384.size a ≤ S384.size a
  hwx1_7 : ∀ i : grid1.Coords, EltTy.bits .f32 = 32 ∨ (Rect.block (s := S384) S384.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x384.size a ≤ S50000x384.size a
  hwx1_8 : ∀ i : grid1.Coords, EltTy.bits .f32 = 32 ∨ (Rect.block (s := S50000x384) S2000x384.size (cc1_transform_8 i) (hinb1_8 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x384_S2000x384_1_0_0_1_n_n : DotDims S2000x256 S256x384 S2000x384 where
  lhsContracting := [1]
  rhsContracting := [0]
  lhsNonContracting := [0]
  rhsNonContracting := [1]
  lhsBatch := []
  rhsBatch := []
  wf := dot_S2000x256_S256x384_S2000x384_1_0_0_1_n_n_wf

abbrev win0_0 : Pipeline.Window sig grid0 :=
  Pipeline.Window.ofSpec (Memref.whole main_v7) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v17) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S384x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S384.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v18) S2000x384.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S128x256 : Shape := ⟨2, ![128, 256]⟩
abbrev S128 : Shape := ⟨1, ![128]⟩
abbrev S256x128 : Shape := ⟨2, ![256, 128]⟩
abbrev S256 : Shape := ⟨1, ![256]⟩
abbrev S384x256 : Shape := ⟨2, ![384, 256]⟩
abbrev S384 : Shape := ⟨1, ![384]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩
abbrev S1x256 : Shape := ⟨2, ![1, 256]⟩
abbrev S256x384 : Shape := ⟨2, ![256, 384]⟩
abbrev S50000x384 : Shape := ⟨2, ![50000, 384]⟩
abbrev S1x384 : Shape := ⟨2, ![1, 384]⟩

abbrev nBuf : Space → Nat
  | .hbm => 91
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S128x256, .f32⟩
  | .hbm, ⟨3, _⟩ => ⟨S128, .f32⟩
  | .hbm, ⟨4, _⟩ => ⟨S128x256, .f32⟩
  | .hbm, ⟨5, _⟩ => ⟨S256x128, .f32⟩
  | .hbm, ⟨6, _⟩ => ⟨S256, .f32⟩
  | .hbm, ⟨7, _⟩ => ⟨S256x128, .f32⟩
  | .hbm, ⟨8, _⟩ => ⟨S384x256, .f32⟩
  | .hbm, ⟨9, _⟩ => ⟨S384, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x256, .f32⟩
  | .hbm, ⟨23, _⟩ => ⟨S_, .f32⟩
  | .hbm, ⟨24, _⟩ => ⟨S50000x256, .f32⟩
  | .hbm, ⟨25, _⟩ => ⟨S800000x1, .i32⟩
  | .hbm, ⟨26, _⟩ => ⟨S50000x256, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x256, .f32⟩
  | .hbm, ⟨38, _⟩ => ⟨S50000x256, .f32⟩
  | .hbm, ⟨39, _⟩ => ⟨S256x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S256x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S_, .f32⟩
  | .hbm, ⟨64, _⟩ => ⟨S800000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S128x256, .f32⟩
  | .hbm, ⟨76, _⟩ => ⟨S50000x256, .f32⟩
  | .hbm, ⟨77, _⟩ => ⟨S1x256, .f32⟩
  | .hbm, ⟨78, _⟩ => ⟨S50000x256, .f32⟩
  | .hbm, ⟨79, _⟩ => ⟨S50000x256, .f32⟩
  | .hbm, ⟨80, _⟩ => ⟨S128x256, .f32⟩
  | .hbm, ⟨81, _⟩ => ⟨S50000x256, .f32⟩
  | .hbm, ⟨82, _⟩ => ⟨S50000x256, .f32⟩
  | .hbm, ⟨83, _⟩ => ⟨S_, .f32⟩
  | .hbm, ⟨84, _⟩ => ⟨S50000x256, .f32⟩
  | .hbm, ⟨85, _⟩ => ⟨S50000x256, .f32⟩
  | .hbm, ⟨86, _⟩ => ⟨S256x384, .f32⟩
  | .hbm, ⟨87, _⟩ => ⟨S50000x384, .f32⟩
  | .hbm, ⟨88, _⟩ => ⟨S1x384, .f32⟩
  | .hbm, ⟨89, _⟩ => ⟨S50000x384, .f32⟩
  | .hbm, ⟨90, _⟩ => ⟨S50000x384, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  transposes_S384x256_S256x384_1_0 : S384x256.Transposes [1, 0] S256x384
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x384_S50000x384_1_0_0_1_n_n_wf : DotDims.WF S50000x256 S256x384 S50000x384 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x384_S50000x384_1_0_0_1_n_n : DotDims S50000x256 S256x384 S50000x384 where
  lhsContracting := [1]
  rhsContracting := [0]
  lhsNonContracting := [0]
  rhsNonContracting := [1]
  lhsBatch := []
  rhsBatch := []
  wf := dot_S50000x256_S256x384_S50000x384_1_0_0_1_n_n_wf

class Facts : Prop extends Facts₀ where

variable [Facts]
-- ==== Proof.LibReduceAnd.lean ====
/-
  `jnp.all` in the other direction: a `stablehlo.reduce` by `and` of one-bit words, every one of which is 1, from an
  initial value that is 1, is 1 at every result index (the library's Lib/ReduceAll.lean reads a result that is 1 back into
  its operand; this is the converse, for a range test that is known to pass everywhere).
-/
import Idealize.ShloMosaic.Lib.ReduceAll

namespace Cert.LibReduceAnd

open Idealize.ShloMosaic

/-- A left fold by `and` over words that are all 1, from 1, is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 by decide]
    exact foldl_andi_one f hf l

/-- A reduce by `and` of an operand that is 1 everywhere, from an initial value that is 1, is 1. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_one x hx _

end Cert.LibReduceAnd
-- ==== Proof.TakeFill.lean ====
/-
  `jnp.take` in its default mode, for source ids that are in range.

  `jnp.take(table, src, axis=0)` wraps a negative id by adding the table's length, gathers the rows, and then replaces
  every row whose wrapped id falls outside `[0, 49999]` by a fill value.  When every id is already in `[0, 50000)` no id is
  wrapped, the range test passes on every edge, and the result is the plain gather at the wrapped ids' column.
-/
import proofs.«422061_j76020921139986_1_alg».proof.Proof.Gen.KernelIdeal
import proofs.«422061_j76020921139986_1_alg».proof.Proof.LibReduceAnd
import Idealize.ShloMosaic.Lib.StableHlo.Predicate
import Idealize.ShloMosaic.Lib.Pipeline.Value
import Idealize.ShloMosaic.Lib.ValueIdx

noncomputable section

open Idealize.ShloMosaic Idealize.ShloMosaic.ValueIdx

namespace Cert.KernelIdeal.TakeFill

open Cert.KernelIdeal Cert.KernelIdeal.Gen

/-- The source ids with the negative ones wrapped, as the `[800000, 1]` column of start indices a gather reads. -/
def wrapCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Per edge, whether the wrapped id lies in `[0, 49999]`. -/
def inRange (s : IVec S800000 32) : IVec S800000 1 :=
  Host.reduce IntOp.andi
    (andi (cmpi .sge (wrapCol s) (broadcastInDim S800000x1 ![] bcast_S_S800000x1 (constantI S_ 32 0#32)))
      (cmpi .sle (wrapCol s)
        (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- A source id below 50000 is not negative as a signed word, so the wrap leaves it as it is. -/
private theorem wrap_id (w : BitVec 32) (hw : w.toNat < 50000) :
    Scalar.select (IntOp.cmpi .slt w 0#32) (IntOp.addi w 50000#32) w = w := by
  have h : IntOp.cmpi .slt w 0#32 = 0#1 := by
    apply eq_zero_of_ne_one
    intro h1
    have h2 := (StableHlo.Predicate.slt_iff_toNat (a := w) (b := 0#32) (by omega) (by decide)).1 h1
    simp at h2
  rw [h, select_zero]

/-- Row `p` of the column of wrapped ids is the id of edge `p` itself. -/
private theorem wrapCol_apply (s : IVec S800000 32) (hs : ∀ e, (s e).toNat < 50000) (p : Fin 800000) (q : Fin 1) :
    wrapCol s (ix2 p q) = s (ix1 p) := by
  unfold wrapCol
  refine (broadcastInDim_apply _ bcast_S800000_S800000x1_0 _ (ix2 p q) (ix1 p) ?_).trans ?_
  · intro a
    match a with
    | ⟨0, _⟩ => rfl
  · exact wrap_id _ (hs _)

/-- With every source id in `[0, 50000)` the range test passes on every edge. -/
theorem inRange_all (s : IVec S800000 32) (hs : ∀ e, (s e).toNat < 50000) : inRange s = fun _ => 1#1 := by
  funext e
  unfold inRange
  -- an `and`-reduction from 1 of a column that is 1 on every row is 1
  refine Cert.LibReduceAnd.reduce_andi_of_all _ _ _ _ e ?_ rfl
  intro i
  obtain ⟨p, q, rfl⟩ : ∃ (p : Fin 800000) (q : Fin 1), i = ix2 p q := ⟨i 0, i 1, eq_ix2 i⟩
  -- at row `p` both bounds are broadcast constants, and the wrapped id is the id itself
  show IntOp.andi (IntOp.cmpi .sge (wrapCol s (ix2 p q)) 0#32) (IntOp.cmpi .sle (wrapCol s (ix2 p q)) 49999#32) = 1#1
  rw [wrapCol_apply s hs p q]
  have h := hs (ix1 p)
  -- a word below 50000 compares with 0 and 49999 as its value does
  rw [(StableHlo.Predicate.sge_iff_toNat (a := s (ix1 p)) (b := 0#32) (by omega) (by decide)).2 (by simp),
    (StableHlo.Predicate.sle_iff_toNat (a := s (ix1 p)) (b := 49999#32) (by omega) (by decide)).2 (by
      show (s (ix1 p)).toNat ≤ 49999
      omega)]
  decide

/-- The take out of the 256-wide table is then the plain gather. -/
theorem take256 (x : FVec Ideal S50000x256 .f32) (s : IVec S800000 32) (hs : ∀ e, (s e).toNat < 50000) :
    select (broadcastInDim S800000x256 ![0] bcast_S800000_S800000x256_0 (inRange s))
        (Host.gather gather_S50000x256_S800000x1_S800000x256_1_0_n_n_0_1_1256 x (wrapCol s))
        (broadcastInDim S800000x256 ![] bcast_S_S800000x256 (constant (F := Ideal) S_ .f32 0x7FC00000#32))
      = Host.gather gather_S50000x256_S800000x1_S800000x256_1_0_n_n_0_1_1256 x (wrapCol s) := by
  rw [inRange_all s hs]
  funext j
  -- the mask is 1 at every position, so the select keeps its first branch
  rw [select_apply]
  exact select_one _ _

/-- The take out of the 128-wide table is then the plain gather. -/
theorem take128 (x : FVec Ideal S50000x128 .f32) (s : IVec S800000 32) (hs : ∀ e, (s e).toNat < 50000) :
    select (broadcastInDim S800000x128 ![0] bcast_S800000_S800000x128_0 (inRange s))
        (Host.gather gather_S50000x128_S800000x1_S800000x128_1_0_n_n_0_1_1128 x (wrapCol s))
        (broadcastInDim S800000x128 ![] bcast_S_S800000x128 (constant (F := Ideal) S_ .f32 0x7FC00000#32))
      = Host.gather gather_S50000x128_S800000x1_S800000x128_1_0_n_n_0_1_1128 x (wrapCol s) := by
  rw [inRange_all s hs]
  funext j
  -- the mask is 1 at every position, so the select keeps its first branch
  rw [select_apply]
  exact select_one _ _

end Cert.KernelIdeal.TakeFill

end
-- ==== Proof.HostStretch.lean ====
/-
  What each stretch of host operations of the kernel program computes, over any contents of the buffers it reads.

  Row 0 of the edge list holds the source ids and row 1 the destination ids.  A layer's neighbour sum adds, for every
  edge, the source node's feature row into the destination node's row; the in-degree adds a one per edge.  The first
  stretch cuts the two rows out of the edge list; each summing stretch scatter-adds the rows a gathering stretch took (those stretches are read in modules of their own).
-/
import proofs.«422061_j76020921139986_1_alg».proof.Proof.Gen.KernelIdeal.Frame
import proofs.«422061_j76020921139986_1_alg».proof.Proof.TakeFill
import Idealize.ShloMosaic.PureOps.Ideal
import Idealize.ShloMosaic.Lib.StableHlo.Run

set_option maxRecDepth 16384

noncomputable section

namespace Cert.KernelIdeal.HostStretch

open Cert.KernelIdeal Cert.KernelIdeal.Gen
open Idealize.ShloMosaic Idealize.ShloMosaic.TcCoe Idealize.ShloMosaic.Tactic

/-! ## The terms, as functions of the argument arrays -/

/-- The source ids: row 0 of the edge list, as a vector. -/
def srcIds (e : IVec S2x800000 32) : IVec S800000 32 :=
  shapeCast S800000 (extractStridedSlice S1x800000 ![0, 0] e slices_S2x800000_S1x800000_0_0) shapeCasts_S1x800000_S800000

/-- The destination ids: row 1 of the edge list, as a vector. -/
def dstIds (e : IVec S2x800000 32) : IVec S800000 32 :=
  shapeCast S800000 (extractStridedSlice S1x800000 ![1, 0] e slices_S2x800000_S1x800000_1_0) shapeCasts_S1x800000_S800000

/-- Rows `u` (one per edge) added into the destination nodes' rows, 256 wide, from zero. -/
def added256 (d : IVec S800000 32) (u : FVec Ideal S800000x256 .f32) : FVec Ideal S50000x256 .f32 :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 d) u

/-- Rows `u` (one per edge) added into the destination nodes' rows, 128 wide, from zero. -/
def added128 (d : IVec S800000 32) (u : FVec Ideal S800000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 d) u

/-- The in-degree, as a column: a one per edge added at the destination node, from zero. -/
def degreeCol (d : IVec S800000 32) : FVec Ideal S50000x1 .f32 :=
  shapeCast S50000x1
    (Host.scatterAdd scatter_S50000_S800000x1_S800000_n_0_0_1
      (broadcastInDim S50000 ![] bcast_S_S50000 (constant (F := Ideal) S_ .f32 0x00000000#32))
      (broadcastInDim S800000x1 ![0] bcast_S800000_S800000x1_0 d)
      (broadcastInDim S800000 ![] bcast_S_S800000 (constant (F := Ideal) S_ .f32 0x3F800000#32)))
    shapeCasts_S50000_S50000x1

/-! ## The stretches -/

variable (W : Valuation τ sig (Elt Ideal))

/-- The first stretch leaves the source ids in their buffer. -/
theorem ids_src : StableHlo.after (hostOps0 (F := Ideal)) W (Proc.devRef .tc main_v1) = srcIds (W (Proc.devRef .tc main_arg1)) := by
  unfold srcIds
  after_results_simp
  rfl

/-- The first stretch leaves the destination ids in their buffer. -/
theorem ids_dst : StableHlo.after (hostOps0 (F := Ideal)) W (Proc.devRef .tc main_v3) = dstIds (W (Proc.devRef .tc main_arg1)) := by
  unfold dstIds
  after_results_simp
  rfl

/-- The first summing stretch adds the taken rows into the destination rows. -/
theorem first_sums : StableHlo.after (hostOps0_2 (F := Ideal)) W (Proc.devRef .tc main_v7)
    = added256 (W (Proc.devRef .tc main_v3)) (W (Proc.devRef .tc main_v4)) := by
  unfold added256
  after_results_simp

/-- The same stretch counts the in-degree, laid out as a column. -/
theorem degree : StableHlo.after (hostOps0_2 (F := Ideal)) W (Proc.devRef .tc main_v12) = degreeCol (W (Proc.devRef .tc main_v3)) := by
  unfold degreeCol
  after_results_simp
  rfl

/-- The second summing stretch adds those rows into the destination rows. -/
theorem second_sums : StableHlo.after (hostOps1_1 (F := Ideal)) W (Proc.devRef .tc main_v17)
    = added128 (W (Proc.devRef .tc main_v3)) (W (Proc.devRef .tc main_v14)) := by
  unfold added128
  after_results_simp

end Cert.KernelIdeal.HostStretch

end
-- ==== Proof.LibAfterAppend.lean ====
/-
  Running two lists of host operations one after the other is running their concatenation: the buffer contents after
  `l₁ ++ l₂` are those after `l₂` from the contents after `l₁`.  With it a long list is read in pieces, each piece's
  result named before the next piece uses it.
-/
import Idealize.ShloMosaic.Lib.StableHlo.Run

noncomputable section

namespace Cert.LibAfterAppend

open Idealize.ShloMosaic

/-- The fold of buffer contents through a concatenation is the fold through the second list from the fold through the
    first. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

end Cert.LibAfterAppend

end
-- ==== Proof.HostTake256.lean ====
/-
  The stretch of host operations that takes the source nodes' rows out of the node features (256 wide), over any contents
  of the buffers it reads: the plain gather at the wrapped ids, inside the range test, with the fill value outside it.
  The stretch is read in three pieces, each piece's result named before the next uses it: the column of wrapped ids;
  the per-edge range test of that column; the gather and the select over the two.
-/
import proofs.«422061_j76020921139986_1_alg».proof.Proof.Gen.KernelIdeal.Frame
import proofs.«422061_j76020921139986_1_alg».proof.Proof.TakeFill
import proofs.«422061_j76020921139986_1_alg».proof.Proof.LibAfterAppend
import Idealize.ShloMosaic.PureOps.Ideal
import Idealize.ShloMosaic.Lib.StableHlo.Run

set_option maxRecDepth 16384

noncomputable section

namespace Cert.KernelIdeal.HostTake256

open Cert.KernelIdeal Cert.KernelIdeal.Gen
open Idealize.ShloMosaic Idealize.ShloMosaic.TcCoe Idealize.ShloMosaic.Tactic

/-- The taken rows of a 256-wide table at source ids `s`: the plain gather inside the range test. -/
def taken256 (x : FVec Ideal S50000x256 .f32) (s : IVec S800000 32) : FVec Ideal S800000x256 .f32 :=
  select (broadcastInDim S800000x256 ![0] bcast_S800000_S800000x256_0 (TakeFill.inRange s))
    (Host.gather gather_S50000x256_S800000x1_S800000x256_1_0_n_n_0_1_1256 x (TakeFill.wrapCol s))
    (broadcastInDim S800000x256 ![] bcast_S_S800000x256 (constant (F := Ideal) S_ .f32 0x7FC00000#32))

/-- Per edge, whether an id of the column lies in `[0, 49999]`. -/
def maskOf (col : IVec S800000x1 32) : IVec S800000 1 :=
  Host.reduce IntOp.andi
    (andi (cmpi .sge col (broadcastInDim S800000x1 ![] bcast_S_S800000x1 (constantI S_ 32 0#32)))
      (cmpi .sle col
        (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- The range test of the column of wrapped ids is the range test of the ids. -/
theorem maskOf_wrapCol (s : IVec S800000 32) : maskOf (TakeFill.wrapCol s) = TakeFill.inRange s := by
  unfold maskOf TakeFill.inRange
  rfl

/-! ## The stretch in three pieces -/

/-- The operations that wrap the negative ids and lay the ids out as a column. -/
abbrev wrapOps : List (HloOp τ sig (Elt Ideal)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S800000, .i32⟩) (broadcastInDim S800000 ![] bcast_S_S800000),
    StableHlo.TRef.binary (.of main_v1 : StableHlo.TRef sig ⟨S800000, .i32⟩) (.of main_call0_v0 : StableHlo.TRef sig ⟨S800000, .i32⟩) (.of main_call0_v1 : StableHlo.TRef sig ⟨S800000, .i1⟩) (cmpi .slt),
    StableHlo.TRef.nullary (.of main_call0_c_0 : StableHlo.TRef sig ⟨S_, .i32⟩) (constantI S_ 32 50000#32),
    StableHlo.TRef.unary (.of main_call0_c_0 : StableHlo.TRef sig ⟨S_, .i32⟩) (.of main_call0_v2 : StableHlo.TRef sig ⟨S800000, .i32⟩) (broadcastInDim S800000 ![] bcast_S_S800000),
    StableHlo.TRef.binary (.of main_v1 : StableHlo.TRef sig ⟨S800000, .i32⟩) (.of main_call0_v2 : StableHlo.TRef sig ⟨S800000, .i32⟩) (.of main_call0_v3 : StableHlo.TRef sig ⟨S800000, .i32⟩) addi,
    StableHlo.TRef.ternary (.of main_call0_v1 : StableHlo.TRef sig ⟨S800000, .i1⟩) (.of main_call0_v3 : StableHlo.TRef sig ⟨S800000, .i32⟩) (.of main_v1 : StableHlo.TRef sig ⟨S800000, .i32⟩) (.of main_call0_v4 : StableHlo.TRef sig ⟨S800000, .i32⟩) select,
    StableHlo.TRef.unary main_call0_call0.v0 (.of main_call0_v5 : StableHlo.TRef sig ⟨S800000x1, .i32⟩) (broadcastInDim S800000x1 ![0] bcast_S800000_S800000x1_0) ]
/-- The operations that test each wrapped id against the table's range. -/
abbrev testOps : List (HloOp τ sig (Elt Ideal)) :=
  [ StableHlo.TRef.nullary (.of main_call0_c_1 : StableHlo.TRef sig ⟨S1, .i32⟩) (constantI S1 32 49999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S800000x1, .i32⟩) (broadcastInDim S800000x1 ![] bcast_S_S800000x1),
    StableHlo.TRef.binary (.of main_call0_v5 : StableHlo.TRef sig ⟨S800000x1, .i32⟩) (.of main_call0_v6 : StableHlo.TRef sig ⟨S800000x1, .i32⟩) (.of main_call0_v7 : StableHlo.TRef sig ⟨S800000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S800000x1, .i32⟩) (broadcastInDim S800000x1 ![0, 1] bcast_S1x1_S800000x1_0_1),
    StableHlo.TRef.binary (.of main_call0_v5 : StableHlo.TRef sig ⟨S800000x1, .i32⟩) (.of main_call0_v9 : StableHlo.TRef sig ⟨S800000x1, .i32⟩) (.of main_call0_v10 : StableHlo.TRef sig ⟨S800000x1, .i1⟩) (cmpi .sle),
    StableHlo.TRef.binary (.of main_call0_v7 : StableHlo.TRef sig ⟨S800000x1, .i1⟩) (.of main_call0_v10 : StableHlo.TRef sig ⟨S800000x1, .i1⟩) (.of main_call0_v11 : StableHlo.TRef sig ⟨S800000x1, .i1⟩) andi,
    StableHlo.TRef.nullary (.of main_call0_c_3 : StableHlo.TRef sig ⟨S_, .i1⟩) (constantI S_ 1 1#1),
    StableHlo.TRef.binary (.of main_call0_v11 : StableHlo.TRef sig ⟨S800000x1, .i1⟩) (.of main_call0_c_3 : StableHlo.TRef sig ⟨S_, .i1⟩) (.of main_call0_v12 : StableHlo.TRef sig ⟨S800000, .i1⟩) (fun x v => Host.reduce IntOp.andi x v reducesTo_S800000x1_S800000_d1 h_S_) ]
/-- The gather, the fill value, and the select between them. -/
abbrev pickOps : List (HloOp τ sig (Elt Ideal)) :=
  [ StableHlo.TRef.binary (.of main_arg0 : StableHlo.TRef sig ⟨S50000x256, .f32⟩) (.of main_call0_v5 : StableHlo.TRef sig ⟨S800000x1, .i32⟩) (.of main_call0_v13 : StableHlo.TRef sig ⟨S800000x256, .f32⟩) (fun x i => Host.gather gather_S50000x256_S800000x1_S800000x256_1_0_n_n_0_1_1256 x i),
    StableHlo.TRef.unary (.of main_call0_v12 : StableHlo.TRef sig ⟨S800000, .i1⟩) (.of main_call0_v14 : StableHlo.TRef sig ⟨S800000x256, .i1⟩) (broadcastInDim S800000x256 ![0] bcast_S800000_S800000x256_0),
    StableHlo.TRef.nullary (.of main_call0_cst : StableHlo.TRef sig ⟨S_, .f32⟩) (constant (F := Ideal) S_ .f32 0x7FC00000#32),
    StableHlo.TRef.unary (.of main_call0_cst : StableHlo.TRef sig ⟨S_, .f32⟩) (.of main_call0_v15 : StableHlo.TRef sig ⟨S800000x256, .f32⟩) (broadcastInDim S800000x256 ![] bcast_S_S800000x256),
    StableHlo.TRef.ternary (.of main_call0_v14 : StableHlo.TRef sig ⟨S800000x256, .i1⟩) (.of main_call0_v13 : StableHlo.TRef sig ⟨S800000x256, .f32⟩) (.of main_call0_v15 : StableHlo.TRef sig ⟨S800000x256, .f32⟩) (.of main_v4 : StableHlo.TRef sig ⟨S800000x256, .f32⟩) select ]

/-- The stretch is the three pieces in order. -/
theorem pieces : (hostOps0_1 (F := Ideal)) = wrapOps ++ (testOps ++ pickOps) := rfl

variable (W : Valuation τ sig (Elt Ideal))

/-- A buffer no operation of a piece writes keeps its contents across the piece. -/
local macro "left_alone " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, Finset.mem_singleton]
  repeat' apply And.intro
  all_goals exact StableHlo.devRef_ne_of_ne (by decide)))

/-- The first piece leaves the column of wrapped ids. -/
theorem wrap_col : StableHlo.after wrapOps W (Proc.devRef .tc main_call0_v5) = TakeFill.wrapCol (W (Proc.devRef .tc main_v1)) := by
  unfold TakeFill.wrapCol
  after_results_simp
  simp only [StableHlo.TRef.ofBuf, StableHlo.TRef.toBuf, cast_eq]
/-- It does not write the table. -/
theorem wrap_tab : StableHlo.after wrapOps W (Proc.devRef .tc main_arg0) = W (Proc.devRef .tc main_arg0) := by
  left_alone wrapOps

/-- The second piece leaves the range test of the column it finds. -/
theorem test_mask : StableHlo.after testOps W (Proc.devRef .tc main_call0_v12) = maskOf (W (Proc.devRef .tc main_call0_v5)) := by
  unfold maskOf
  after_results_simp
  simp only [StableHlo.TRef.ofBuf, StableHlo.TRef.toBuf, cast_eq]
/-- It writes neither the column nor the table. -/
theorem test_col : StableHlo.after testOps W (Proc.devRef .tc main_call0_v5) = W (Proc.devRef .tc main_call0_v5) := by
  left_alone testOps
theorem test_tab : StableHlo.after testOps W (Proc.devRef .tc main_arg0) = W (Proc.devRef .tc main_arg0) := by
  left_alone testOps

/-- The third piece gathers the table's rows at the column and keeps them where the test passed. -/
theorem pick_rows : StableHlo.after pickOps W (Proc.devRef .tc main_v4)
    = select (broadcastInDim S800000x256 ![0] bcast_S800000_S800000x256_0 (W (Proc.devRef .tc main_call0_v12)))
        (Host.gather gather_S50000x256_S800000x1_S800000x256_1_0_n_n_0_1_1256 (W (Proc.devRef .tc main_arg0)) (W (Proc.devRef .tc main_call0_v5)))
        (broadcastInDim S800000x256 ![] bcast_S_S800000x256 (constant (F := Ideal) S_ .f32 0x7FC00000#32)) := by
  after_results_simp
  simp only [StableHlo.TRef.ofBuf, StableHlo.TRef.toBuf, cast_eq]

/-- The first gathering stretch takes the source rows out of the node features. -/
theorem first_take : StableHlo.after (hostOps0_1 (F := Ideal)) W (Proc.devRef .tc main_v4)
    = taken256 (W (Proc.devRef .tc main_arg0)) (W (Proc.devRef .tc main_v1)) := by
  unfold taken256
  rw [pieces, Cert.LibAfterAppend.after_append, Cert.LibAfterAppend.after_append, pick_rows, test_mask, test_col, test_tab,
    wrap_col, wrap_tab, maskOf_wrapCol]

end Cert.KernelIdeal.HostTake256

end
-- ==== Proof.HostTake128.lean ====
/-
  The stretch of host operations that takes the source nodes' rows out of the first layer's output (128 wide), over any contents
  of the buffers it reads: the plain gather at the wrapped ids, inside the range test, with the fill value outside it.
  The stretch is read in three pieces, each piece's result named before the next uses it: the column of wrapped ids;
  the per-edge range test of that column; the gather and the select over the two.
-/
import proofs.«422061_j76020921139986_1_alg».proof.Proof.Gen.KernelIdeal.Frame
import proofs.«422061_j76020921139986_1_alg».proof.Proof.TakeFill
import proofs.«422061_j76020921139986_1_alg».proof.Proof.LibAfterAppend
import Idealize.ShloMosaic.PureOps.Ideal
import Idealize.ShloMosaic.Lib.StableHlo.Run

set_option maxRecDepth 16384

noncomputable section

namespace Cert.KernelIdeal.HostTake128

open Cert.KernelIdeal Cert.KernelIdeal.Gen
open Idealize.ShloMosaic Idealize.ShloMosaic.TcCoe Idealize.ShloMosaic.Tactic

/-- The taken rows of a 128-wide table at source ids `s`: the plain gather inside the range test. -/
def taken128 (x : FVec Ideal S50000x128 .f32) (s : IVec S800000 32) : FVec Ideal S800000x128 .f32 :=
  select (broadcastInDim S800000x128 ![0] bcast_S800000_S800000x128_0 (TakeFill.inRange s))
    (Host.gather gather_S50000x128_S800000x1_S800000x128_1_0_n_n_0_1_1128 x (TakeFill.wrapCol s))
    (broadcastInDim S800000x128 ![] bcast_S_S800000x128 (constant (F := Ideal) S_ .f32 0x7FC00000#32))

/-- Per edge, whether an id of the column lies in `[0, 49999]`. -/
def maskOf (col : IVec S800000x1 32) : IVec S800000 1 :=
  Host.reduce IntOp.andi
    (andi (cmpi .sge col (broadcastInDim S800000x1 ![] bcast_S_S800000x1 (constantI S_ 32 0#32)))
      (cmpi .sle col
        (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- The range test of the column of wrapped ids is the range test of the ids. -/
theorem maskOf_wrapCol (s : IVec S800000 32) : maskOf (TakeFill.wrapCol s) = TakeFill.inRange s := by
  unfold maskOf TakeFill.inRange
  rfl

/-! ## The stretch in three pieces -/

/-- The operations that wrap the negative ids and lay the ids out as a column. -/
abbrev wrapOps : List (HloOp τ sig (Elt Ideal)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S800000, .i32⟩) (broadcastInDim S800000 ![] bcast_S_S800000),
    StableHlo.TRef.binary (.of main_v1 : StableHlo.TRef sig ⟨S800000, .i32⟩) (.of main_call1_v0 : StableHlo.TRef sig ⟨S800000, .i32⟩) (.of main_call1_v1 : StableHlo.TRef sig ⟨S800000, .i1⟩) (cmpi .slt),
    StableHlo.TRef.nullary (.of main_call1_c_0 : StableHlo.TRef sig ⟨S_, .i32⟩) (constantI S_ 32 50000#32),
    StableHlo.TRef.unary (.of main_call1_c_0 : StableHlo.TRef sig ⟨S_, .i32⟩) (.of main_call1_v2 : StableHlo.TRef sig ⟨S800000, .i32⟩) (broadcastInDim S800000 ![] bcast_S_S800000),
    StableHlo.TRef.binary (.of main_v1 : StableHlo.TRef sig ⟨S800000, .i32⟩) (.of main_call1_v2 : StableHlo.TRef sig ⟨S800000, .i32⟩) (.of main_call1_v3 : StableHlo.TRef sig ⟨S800000, .i32⟩) addi,
    StableHlo.TRef.ternary (.of main_call1_v1 : StableHlo.TRef sig ⟨S800000, .i1⟩) (.of main_call1_v3 : StableHlo.TRef sig ⟨S800000, .i32⟩) (.of main_v1 : StableHlo.TRef sig ⟨S800000, .i32⟩) (.of main_call1_v4 : StableHlo.TRef sig ⟨S800000, .i32⟩) select,
    StableHlo.TRef.unary main_call1_call0.v0 (.of main_call1_v5 : StableHlo.TRef sig ⟨S800000x1, .i32⟩) (broadcastInDim S800000x1 ![0] bcast_S800000_S800000x1_0) ]
/-- The operations that test each wrapped id against the table's range. -/
abbrev testOps : List (HloOp τ sig (Elt Ideal)) :=
  [ StableHlo.TRef.nullary (.of main_call1_c_1 : StableHlo.TRef sig ⟨S1, .i32⟩) (constantI S1 32 49999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S800000x1, .i32⟩) (broadcastInDim S800000x1 ![] bcast_S_S800000x1),
    StableHlo.TRef.binary (.of main_call1_v5 : StableHlo.TRef sig ⟨S800000x1, .i32⟩) (.of main_call1_v6 : StableHlo.TRef sig ⟨S800000x1, .i32⟩) (.of main_call1_v7 : StableHlo.TRef sig ⟨S800000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S800000x1, .i32⟩) (broadcastInDim S800000x1 ![0, 1] bcast_S1x1_S800000x1_0_1),
    StableHlo.TRef.binary (.of main_call1_v5 : StableHlo.TRef sig ⟨S800000x1, .i32⟩) (.of main_call1_v9 : StableHlo.TRef sig ⟨S800000x1, .i32⟩) (.of main_call1_v10 : StableHlo.TRef sig ⟨S800000x1, .i1⟩) (cmpi .sle),
    StableHlo.TRef.binary (.of main_call1_v7 : StableHlo.TRef sig ⟨S800000x1, .i1⟩) (.of main_call1_v10 : StableHlo.TRef sig ⟨S800000x1, .i1⟩) (.of main_call1_v11 : StableHlo.TRef sig ⟨S800000x1, .i1⟩) andi,
    StableHlo.TRef.nullary (.of main_call1_c_3 : StableHlo.TRef sig ⟨S_, .i1⟩) (constantI S_ 1 1#1),
    StableHlo.TRef.binary (.of main_call1_v11 : StableHlo.TRef sig ⟨S800000x1, .i1⟩) (.of main_call1_c_3 : StableHlo.TRef sig ⟨S_, .i1⟩) (.of main_call1_v12 : StableHlo.TRef sig ⟨S800000, .i1⟩) (fun x v => Host.reduce IntOp.andi x v reducesTo_S800000x1_S800000_d1 h_S_) ]
/-- The gather, the fill value, and the select between them. -/
abbrev pickOps : List (HloOp τ sig (Elt Ideal)) :=
  [ StableHlo.TRef.binary (.of main_v13 : StableHlo.TRef sig ⟨S50000x128, .f32⟩) (.of main_call1_v5 : StableHlo.TRef sig ⟨S800000x1, .i32⟩) (.of main_call1_v13 : StableHlo.TRef sig ⟨S800000x128, .f32⟩) (fun x i => Host.gather gather_S50000x128_S800000x1_S800000x128_1_0_n_n_0_1_1128 x i),
    StableHlo.TRef.unary (.of main_call1_v12 : StableHlo.TRef sig ⟨S800000, .i1⟩) (.of main_call1_v14 : StableHlo.TRef sig ⟨S800000x128, .i1⟩) (broadcastInDim S800000x128 ![0] bcast_S800000_S800000x128_0),
    StableHlo.TRef.nullary (.of main_call1_cst : StableHlo.TRef sig ⟨S_, .f32⟩) (constant (F := Ideal) S_ .f32 0x7FC00000#32),
    StableHlo.TRef.unary (.of main_call1_cst : StableHlo.TRef sig ⟨S_, .f32⟩) (.of main_call1_v15 : StableHlo.TRef sig ⟨S800000x128, .f32⟩) (broadcastInDim S800000x128 ![] bcast_S_S800000x128),
    StableHlo.TRef.ternary (.of main_call1_v14 : StableHlo.TRef sig ⟨S800000x128, .i1⟩) (.of main_call1_v13 : StableHlo.TRef sig ⟨S800000x128, .f32⟩) (.of main_call1_v15 : StableHlo.TRef sig ⟨S800000x128, .f32⟩) (.of main_v14 : StableHlo.TRef sig ⟨S800000x128, .f32⟩) select ]

/-- The stretch is the three pieces in order. -/
theorem pieces : (hostOps1 (F := Ideal)) = wrapOps ++ (testOps ++ pickOps) := rfl

variable (W : Valuation τ sig (Elt Ideal))

/-- A buffer no operation of a piece writes keeps its contents across the piece. -/
local macro "left_alone " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, Finset.mem_singleton]
  repeat' apply And.intro
  all_goals exact StableHlo.devRef_ne_of_ne (by decide)))

/-- The first piece leaves the column of wrapped ids. -/
theorem wrap_col : StableHlo.after wrapOps W (Proc.devRef .tc main_call1_v5) = TakeFill.wrapCol (W (Proc.devRef .tc main_v1)) := by
  unfold TakeFill.wrapCol
  after_results_simp
  simp only [StableHlo.TRef.ofBuf, StableHlo.TRef.toBuf, cast_eq]
/-- It does not write the table. -/
theorem wrap_tab : StableHlo.after wrapOps W (Proc.devRef .tc main_v13) = W (Proc.devRef .tc main_v13) := by
  left_alone wrapOps

/-- The second piece leaves the range test of the column it finds. -/
theorem test_mask : StableHlo.after testOps W (Proc.devRef .tc main_call1_v12) = maskOf (W (Proc.devRef .tc main_call1_v5)) := by
  unfold maskOf
  after_results_simp
  simp only [StableHlo.TRef.ofBuf, StableHlo.TRef.toBuf, cast_eq]
/-- It writes neither the column nor the table. -/
theorem test_col : StableHlo.after testOps W (Proc.devRef .tc main_call1_v5) = W (Proc.devRef .tc main_call1_v5) := by
  left_alone testOps
theorem test_tab : StableHlo.after testOps W (Proc.devRef .tc main_v13) = W (Proc.devRef .tc main_v13) := by
  left_alone testOps

/-- The third piece gathers the table's rows at the column and keeps them where the test passed. -/
theorem pick_rows : StableHlo.after pickOps W (Proc.devRef .tc main_v14)
    = select (broadcastInDim S800000x128 ![0] bcast_S800000_S800000x128_0 (W (Proc.devRef .tc main_call1_v12)))
        (Host.gather gather_S50000x128_S800000x1_S800000x128_1_0_n_n_0_1_1128 (W (Proc.devRef .tc main_v13)) (W (Proc.devRef .tc main_call1_v5)))
        (broadcastInDim S800000x128 ![] bcast_S_S800000x128 (constant (F := Ideal) S_ .f32 0x7FC00000#32)) := by
  after_results_simp
  simp only [StableHlo.TRef.ofBuf, StableHlo.TRef.toBuf, cast_eq]

/-- The second gathering stretch takes the source rows out of the first layer's output. -/
theorem second_take : StableHlo.after (hostOps1 (F := Ideal)) W (Proc.devRef .tc main_v14)
    = taken128 (W (Proc.devRef .tc main_v13)) (W (Proc.devRef .tc main_v1)) := by
  unfold taken128
  rw [pieces, Cert.LibAfterAppend.after_append, Cert.LibAfterAppend.after_append, pick_rows, test_mask, test_col, test_tab,
    wrap_col, wrap_tab, maskOf_wrapCol]

end Cert.KernelIdeal.HostTake128

end
-- ==== Proof.HostKept.lean ====
/-
  The stretches of host operations between the kernel regions write only their own results: each buffer a later
  step still reads (the edge-index vectors, the degree column, the first layer's output, the weights and biases)
  holds after a stretch what it held before it.
-/
import proofs.«422061_j76020921139986_1_alg».proof.Proof.Gen.KernelIdeal.Frame
import Idealize.ShloMosaic.Lib.StableHlo.Run

set_option maxRecDepth 16384

noncomputable section

namespace Cert.KernelIdeal.HostKept

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- A buffer keeps its contents across a list of operations when it is not in any operation's written set; every
    operation here writes exactly one buffer, so it is enough that the buffer differs from each of those. -/
local macro "kept_across " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ### The first stretch (the two rows of the edge list cut out and flattened) leaves the node features and every weight and bias alone. -/

theorem s0_main_arg0 {F : FTy → Type} [FloatOps F] (W : Valuation τ sig (Elt F)) :
    StableHlo.after (hostOps0 (F := F)) W (Proc.devRef .tc main_arg0) = W (Proc.devRef .tc main_arg0) := by
  kept_across hostOps0
theorem s0_main_arg2 {F : FTy → Type} [FloatOps F] (W : Valuation τ sig (Elt F)) :
    StableHlo.after (hostOps0 (F := F)) W (Proc.devRef .tc main_arg2) = W (Proc.devRef .tc main_arg2) := by
  kept_across hostOps0
theorem s0_main_arg3 {F : FTy → Type} [FloatOps F] (W : Valuation τ sig (Elt F)) :
    StableHlo.after (hostOps0 (F := F)) W (Proc.devRef .tc main_arg3) = W (Proc.devRef .tc main_arg3) := by
  kept_across hostOps0
theorem s0_main_arg4 {F : FTy → Type} [FloatOps F] (W : Valuation τ sig (Elt F)) :
    StableHlo.after (hostOps0 (F := F)) W (Proc.devRef .tc main_arg4) = W (Proc.devRef .tc main_arg4) := by
  kept_across hostOps0
theorem s0_main_arg5 {F : FTy → Type} [FloatOps F] (W : Valuation τ sig (Elt F)) :
    StableHlo.after (hostOps0 (F := F)) W (Proc.devRef .tc main_arg5) = W (Proc.devRef .tc main_arg5) := by
  kept_across hostOps0
theorem s0_main_arg6 {F : FTy → Type} [FloatOps F] (W : Valuation τ sig (Elt F)) :
    StableHlo.after (hostOps0 (F := F)) W (Proc.devRef .tc main_arg6) = W (Proc.devRef .tc main_arg6) := by
  kept_across hostOps0
theorem s0_main_arg7 {F : FTy → Type} [FloatOps F] (W : Valuation τ sig (Elt F)) :
    StableHlo.after (hostOps0 (F := F)) W (Proc.devRef .tc main_arg7) = W (Proc.devRef .tc main_arg7) := by
  kept_across hostOps0
theorem s0_main_arg8 {F : FTy → Type} [FloatOps F] (W : Valuation τ sig (Elt F)) :
    StableHlo.after (hostOps0 (F := F)) W (Proc.devRef .tc main_arg8) = W (Proc.devRef .tc main_arg8) := by
  kept_across hostOps0
theorem s0_main_arg9 {F : FTy → Type} [FloatOps F] (W : Valuation τ sig (Elt F)) :
    StableHlo.after (hostOps0 (F := F)) W (Proc.devRef .tc main_arg9) = W (Proc.devRef .tc main_arg9) := by
  kept_across hostOps0

/-! ### The first gather of neighbour rows reads the two edge-index vectors and the node features and writes none of them, nor any weight or bias. -/

theorem s01_main_v1 {F : FTy → Type} [FloatOps F] (W : Valuation τ sig (Elt F)) :
    StableHlo.after (hostOps0_1 (F := F)) W (Proc.devRef .tc main_v1) = W (Proc.devRef .tc main_v1) := by
  kept_across hostOps0_1
theorem s01_main_v3 {F : FTy → Type} [FloatOps F] (W : Valuation τ sig (Elt F)) :
    StableHlo.after (hostOps0_1 (F := F)) W (Proc.devRef .tc main_v3) = W (Proc.devRef .tc main_v3) := by
  kept_across hostOps0_1
theorem s01_main_arg0 {F : FTy → Type} [FloatOps F] (W : Valuation τ sig (Elt F)) :
    StableHlo.after (hostOps0_1 (F := F)) W (Proc.devRef .tc main_arg0) = W (Proc.devRef .tc main_arg0) := by
  kept_across hostOps0_1
theorem s01_main_arg2 {F : FTy → Type} [FloatOps F] (W : Valuation τ sig (Elt F)) :
    StableHlo.after (hostOps0_1 (F := F)) W (Proc.devRef .tc main_arg2) = W (Proc.devRef .tc main_arg2) := by
  kept_across hostOps0_1
theorem s01_main_arg3 {F : FTy → Type} [FloatOps F] (W : Valuation τ sig (Elt F)) :
    StableHlo.after (hostOps0_1 (F := F)) W (Proc.devRef .tc main_arg3) = W (Proc.devRef .tc main_arg3) := by
  kept_across hostOps0_1
theorem s01_main_arg4 {F : FTy → Type} [FloatOps F] (W : Valuation τ sig (Elt F)) :
    StableHlo.after (hostOps0_1 (F := F)) W (Proc.devRef .tc main_arg4) = W (Proc.devRef .tc main_arg4) := by
  kept_across hostOps0_1
theorem s01_main_arg5 {F : FTy → Type} [FloatOps F] (W : Valuation τ sig (Elt F)) :
    StableHlo.after (hostOps0_1 (F := F)) W (Proc.devRef .tc main_arg5) = W (Proc.devRef .tc main_arg5) := by
  kept_across hostOps0_1
theorem s01_main_arg6 {F : FTy → Type} [FloatOps F] (W : Valuation τ sig (Elt F)) :
    StableHlo.after (hostOps0_1 (F := F)) W (Proc.devRef .tc main_arg6) = W (Proc.devRef .tc main_arg6) := by
  kept_across hostOps0_1
theorem s01_main_arg7 {F : FTy → Type} [FloatOps F] (W : Valuation τ sig (Elt F)) :
    StableHlo.after (hostOps0_1 (F := F)) W (Proc.devRef .tc main_arg7) = W (Proc.devRef .tc main_arg7) := by
  kept_across hostOps0_1
theorem s01_main_arg8 {F : FTy → Type} [FloatOps F] (W : Valuation τ sig (Elt F)) :
    StableHlo.after (hostOps0_1 (F := F)) W (Proc.devRef .tc main_arg8) = W (Proc.devRef .tc main_arg8) := by
  kept_across hostOps0_1
theorem s01_main_arg9 {F : FTy → Type} [FloatOps F] (W : Valuation τ sig (Elt F)) :
    StableHlo.after (hostOps0_1 (F := F)) W (Proc.devRef .tc main_arg9) = W (Proc.devRef .tc main_arg9) := by
  kept_across hostOps0_1

/-! ### The first scatter-add (neighbour sums and degrees) leaves the two edge-index vectors, the node features and every weight and bias alone. -/

theorem s02_main_v1 {F : FTy → Type} [FloatOps F] (W : Valuation τ sig (Elt F)) :
    StableHlo.after (hostOps0_2 (F := F)) W (Proc.devRef .tc main_v1) = W (Proc.devRef .tc main_v1) := by
  kept_across hostOps0_2
theorem s02_main_v3 {F : FTy → Type} [FloatOps F] (W : Valuation τ sig (Elt F)) :
    StableHlo.after (hostOps0_2 (F := F)) W (Proc.devRef .tc main_v3) = W (Proc.devRef .tc main_v3) := by
  kept_across hostOps0_2
theorem s02_main_arg0 {F : FTy → Type} [FloatOps F] (W : Valuation τ sig (Elt F)) :
    StableHlo.after (hostOps0_2 (F := F)) W (Proc.devRef .tc main_arg0) = W (Proc.devRef .tc main_arg0) := by
  kept_across hostOps0_2
theorem s02_main_arg2 {F : FTy → Type} [FloatOps F] (W : Valuation τ sig (Elt F)) :
    StableHlo.after (hostOps0_2 (F := F)) W (Proc.devRef .tc main_arg2) = W (Proc.devRef .tc main_arg2) := by
  kept_across hostOps0_2
theorem s02_main_arg3 {F : FTy → Type} [FloatOps F] (W : Valuation τ sig (Elt F)) :
    StableHlo.after (hostOps0_2 (F := F)) W (Proc.devRef .tc main_arg3) = W (Proc.devRef .tc main_arg3) := by
  kept_across hostOps0_2
theorem s02_main_arg4 {F : FTy → Type} [FloatOps F] (W : Valuation τ sig (Elt F)) :
    StableHlo.after (hostOps0_2 (F := F)) W (Proc.devRef .tc main_arg4) = W (Proc.devRef .tc main_arg4) := by
  kept_across hostOps0_2
theorem s02_main_arg5 {F : FTy → Type} [FloatOps F] (W : Valuation τ sig (Elt F)) :
    StableHlo.after (hostOps0_2 (F := F)) W (Proc.devRef .tc main_arg5) = W (Proc.devRef .tc main_arg5) := by
  kept_across hostOps0_2
theorem s02_main_arg6 {F : FTy → Type} [FloatOps F] (W : Valuation τ sig (Elt F)) :
    StableHlo.after (hostOps0_2 (F := F)) W (Proc.devRef .tc main_arg6) = W (Proc.devRef .tc main_arg6) := by
  kept_across hostOps0_2
theorem s02_main_arg7 {F : FTy → Type} [FloatOps F] (W : Valuation τ sig (Elt F)) :
    StableHlo.after (hostOps0_2 (F := F)) W (Proc.devRef .tc main_arg7) = W (Proc.devRef .tc main_arg7) := by
  kept_across hostOps0_2
theorem s02_main_arg8 {F : FTy → Type} [FloatOps F] (W : Valuation τ sig (Elt F)) :
    StableHlo.after (hostOps0_2 (F := F)) W (Proc.devRef .tc main_arg8) = W (Proc.devRef .tc main_arg8) := by
  kept_across hostOps0_2
theorem s02_main_arg9 {F : FTy → Type} [FloatOps F] (W : Valuation τ sig (Elt F)) :
    StableHlo.after (hostOps0_2 (F := F)) W (Proc.devRef .tc main_arg9) = W (Proc.devRef .tc main_arg9) := by
  kept_across hostOps0_2

/-! ### The second gather of neighbour rows reads the first layer's output and writes neither it, nor the target-index vector, nor the degree column, nor the second layer's and the last map's weights and biases. -/

theorem s1_main_v3 {F : FTy → Type} [FloatOps F] (W : Valuation τ sig (Elt F)) :
    StableHlo.after (hostOps1 (F := F)) W (Proc.devRef .tc main_v3) = W (Proc.devRef .tc main_v3) := by
  kept_across hostOps1
theorem s1_main_v12 {F : FTy → Type} [FloatOps F] (W : Valuation τ sig (Elt F)) :
    StableHlo.after (hostOps1 (F := F)) W (Proc.devRef .tc main_v12) = W (Proc.devRef .tc main_v12) := by
  kept_across hostOps1
theorem s1_main_v13 {F : FTy → Type} [FloatOps F] (W : Valuation τ sig (Elt F)) :
    StableHlo.after (hostOps1 (F := F)) W (Proc.devRef .tc main_v13) = W (Proc.devRef .tc main_v13) := by
  kept_across hostOps1
theorem s1_main_arg5 {F : FTy → Type} [FloatOps F] (W : Valuation τ sig (Elt F)) :
    StableHlo.after (hostOps1 (F := F)) W (Proc.devRef .tc main_arg5) = W (Proc.devRef .tc main_arg5) := by
  kept_across hostOps1
theorem s1_main_arg6 {F : FTy → Type} [FloatOps F] (W : Valuation τ sig (Elt F)) :
    StableHlo.after (hostOps1 (F := F)) W (Proc.devRef .tc main_arg6) = W (Proc.devRef .tc main_arg6) := by
  kept_across hostOps1
theorem s1_main_arg7 {F : FTy → Type} [FloatOps F] (W : Valuation τ sig (Elt F)) :
    StableHlo.after (hostOps1 (F := F)) W (Proc.devRef .tc main_arg7) = W (Proc.devRef .tc main_arg7) := by
  kept_across hostOps1
theorem s1_main_arg8 {F : FTy → Type} [FloatOps F] (W : Valuation τ sig (Elt F)) :
    StableHlo.after (hostOps1 (F := F)) W (Proc.devRef .tc main_arg8) = W (Proc.devRef .tc main_arg8) := by
  kept_across hostOps1
theorem s1_main_arg9 {F : FTy → Type} [FloatOps F] (W : Valuation τ sig (Elt F)) :
    StableHlo.after (hostOps1 (F := F)) W (Proc.devRef .tc main_arg9) = W (Proc.devRef .tc main_arg9) := by
  kept_across hostOps1

/-! ### The second scatter-add (neighbour sums of the first layer's output) leaves the degree column, the first layer's output and the second layer's and the last map's weights and biases alone. -/

theorem s11_main_v12 {F : FTy → Type} [FloatOps F] (W : Valuation τ sig (Elt F)) :
    StableHlo.after (hostOps1_1 (F := F)) W (Proc.devRef .tc main_v12) = W (Proc.devRef .tc main_v12) := by
  kept_across hostOps1_1
theorem s11_main_v13 {F : FTy → Type} [FloatOps F] (W : Valuation τ sig (Elt F)) :
    StableHlo.after (hostOps1_1 (F := F)) W (Proc.devRef .tc main_v13) = W (Proc.devRef .tc main_v13) := by
  kept_across hostOps1_1
theorem s11_main_arg5 {F : FTy → Type} [FloatOps F] (W : Valuation τ sig (Elt F)) :
    StableHlo.after (hostOps1_1 (F := F)) W (Proc.devRef .tc main_arg5) = W (Proc.devRef .tc main_arg5) := by
  kept_across hostOps1_1
theorem s11_main_arg6 {F : FTy → Type} [FloatOps F] (W : Valuation τ sig (Elt F)) :
    StableHlo.after (hostOps1_1 (F := F)) W (Proc.devRef .tc main_arg6) = W (Proc.devRef .tc main_arg6) := by
  kept_across hostOps1_1
theorem s11_main_arg7 {F : FTy → Type} [FloatOps F] (W : Valuation τ sig (Elt F)) :
    StableHlo.after (hostOps1_1 (F := F)) W (Proc.devRef .tc main_arg7) = W (Proc.devRef .tc main_arg7) := by
  kept_across hostOps1_1
theorem s11_main_arg8 {F : FTy → Type} [FloatOps F] (W : Valuation τ sig (Elt F)) :
    StableHlo.after (hostOps1_1 (F := F)) W (Proc.devRef .tc main_arg8) = W (Proc.devRef .tc main_arg8) := by
  kept_across hostOps1_1
theorem s11_main_arg9 {F : FTy → Type} [FloatOps F] (W : Valuation τ sig (Elt F)) :
    StableHlo.after (hostOps1_1 (F := F)) W (Proc.devRef .tc main_arg9) = W (Proc.devRef .tc main_arg9) := by
  kept_across hostOps1_1

end Cert.KernelIdeal.HostKept

end
-- ==== Proof.Spec.lean ====
/-
  What the two-layer network computes at a node, as functions of whole arrays over the extended reals.

  A layer takes, per node `i`, the sum `A i` of its in-neighbours' feature rows and the in-degree `D i`
  (kept as a column `[n, 1]`), and the node's own features `X i`.  With `mean i k = A i k / max (D i) 1`,

    conv i o = (∑ k, mean i k · Wl o k) + (∑ k, X i k · Wr o k) + b o,     hidden i o = max (conv i o) 0.

  `hidden1` is that for the first layer (256 features in, 128 out).  `projected` is the second layer (128 in,
  256 out) followed by the last linear map (256 → 384): `(∑ c, hidden2 i c · Wp o c) + bp o`.
  The two float constants stay as the words the programs print; neither is ever evaluated.
-/
import Idealize.ShloMosaic.PureOps.Ideal
import Idealize.ShloMosaic.Lib.ValueIdx

noncomputable section

open scoped BigOperators
open Idealize.ShloMosaic Idealize.ShloMosaic.ValueIdx

namespace Cert.Sage

/-- The word of `1.0`, read at the extended reals. -/
abbrev one : EReal := Ideal.ofBits .f32 0x3F800000#32
/-- The word of `0.0`, read at the extended reals. -/
abbrev zero : EReal := Ideal.ofBits .f32 0x00000000#32

/-- One entry of a layer before the rectifier: the mean-aggregated neighbours through `Wl`, the node itself
    through `Wr`, and the bias, for feature rows of length `K` given as functions of the feature index. -/
def conv {K : ℕ} (a : Fin K → EReal) (d : EReal) (x : Fin K → EReal) (wl wr : Fin K → EReal) (b : EReal) : EReal :=
  (∑ k : Fin K, Ideal.div (a k) (max d one) * wl k) + (∑ k : Fin K, x k * wr k) + b

/-- The first layer's output at node `p`, feature `o`. -/
def hidden1At (A : (⟨2, ![50000, 256]⟩ : Shape).Idx → EReal) (D : (⟨2, ![50000, 1]⟩ : Shape).Idx → EReal)
    (X : (⟨2, ![50000, 256]⟩ : Shape).Idx → EReal) (Wl Wr : (⟨2, ![128, 256]⟩ : Shape).Idx → EReal)
    (b : (⟨1, ![128]⟩ : Shape).Idx → EReal) (p : Fin 50000) (o : Fin 128) : EReal :=
  max (conv (fun k : Fin 256 => A (ix2 p k)) (D (ix2 p (0 : Fin 1))) (fun k : Fin 256 => X (ix2 p k))
    (fun k : Fin 256 => Wl (ix2 o k)) (fun k : Fin 256 => Wr (ix2 o k)) (b (ix1 o))) zero

/-- The first layer's output array. -/
def hidden1 (A : (⟨2, ![50000, 256]⟩ : Shape).Idx → EReal) (D : (⟨2, ![50000, 1]⟩ : Shape).Idx → EReal)
    (X : (⟨2, ![50000, 256]⟩ : Shape).Idx → EReal) (Wl Wr : (⟨2, ![128, 256]⟩ : Shape).Idx → EReal)
    (b : (⟨1, ![128]⟩ : Shape).Idx → EReal) : (⟨2, ![50000, 128]⟩ : Shape).Idx → EReal :=
  fun j => hidden1At A D X Wl Wr b (j 0) (j 1)

/-- The second layer's output at node `p`, feature `c`. -/
def hidden2At (A : (⟨2, ![50000, 128]⟩ : Shape).Idx → EReal) (D : (⟨2, ![50000, 1]⟩ : Shape).Idx → EReal)
    (H : (⟨2, ![50000, 128]⟩ : Shape).Idx → EReal) (Wl Wr : (⟨2, ![256, 128]⟩ : Shape).Idx → EReal)
    (b : (⟨1, ![256]⟩ : Shape).Idx → EReal) (p : Fin 50000) (c : Fin 256) : EReal :=
  max (conv (fun k : Fin 128 => A (ix2 p k)) (D (ix2 p (0 : Fin 1))) (fun k : Fin 128 => H (ix2 p k))
    (fun k : Fin 128 => Wl (ix2 c k)) (fun k : Fin 128 => Wr (ix2 c k)) (b (ix1 c))) zero

/-- The network's output at node `p`, output feature `o`: the second layer through the last linear map. -/
def projectedAt (A : (⟨2, ![50000, 128]⟩ : Shape).Idx → EReal) (D : (⟨2, ![50000, 1]⟩ : Shape).Idx → EReal)
    (H : (⟨2, ![50000, 128]⟩ : Shape).Idx → EReal) (Wl Wr : (⟨2, ![256, 128]⟩ : Shape).Idx → EReal)
    (b : (⟨1, ![256]⟩ : Shape).Idx → EReal) (Wp : (⟨2, ![384, 256]⟩ : Shape).Idx → EReal)
    (bp : (⟨1, ![384]⟩ : Shape).Idx → EReal) (p : Fin 50000) (o : Fin 384) : EReal :=
  (∑ c : Fin 256, hidden2At A D H Wl Wr b p c * Wp (ix2 o c)) + bp (ix1 o)

/-- The network's output array. -/
def projected (A : (⟨2, ![50000, 128]⟩ : Shape).Idx → EReal) (D : (⟨2, ![50000, 1]⟩ : Shape).Idx → EReal)
    (H : (⟨2, ![50000, 128]⟩ : Shape).Idx → EReal) (Wl Wr : (⟨2, ![256, 128]⟩ : Shape).Idx → EReal)
    (b : (⟨1, ![256]⟩ : Shape).Idx → EReal) (Wp : (⟨2, ![384, 256]⟩ : Shape).Idx → EReal)
    (bp : (⟨1, ![384]⟩ : Shape).Idx → EReal) : (⟨2, ![50000, 384]⟩ : Shape).Idx → EReal :=
  fun j => projectedAt A D H Wl Wr b Wp bp (j 0) (j 1)

/-- The reference adds the bias before the node's own term; on the extended reals addition is commutative and
    associative (no finiteness is needed for that), so the two groupings agree. -/
theorem conv_bias_first {K : ℕ} (a : Fin K → EReal) (d : EReal) (x : Fin K → EReal) (wl wr : Fin K → EReal) (b : EReal) :
    ((∑ k : Fin K, Ideal.div (a k) (max d one) * wl k) + b) + (∑ k : Fin K, x k * wr k) = conv a d x wl wr b := by
  unfold conv
  exact add_right_comm _ _ _

end Cert.Sage

end
-- ==== Proof.Network.lean ====
/-
  The kernel program's result as ONE function of its ten arguments over the extended reals: the first layer over the
  neighbour sums of the node features, the second layer and the last linear map over the neighbour sums of the first
  layer's output, both with the in-degree column; the source rows read by the plain gather at the wrapped ids.
-/
import proofs.«422061_j76020921139986_1_alg».proof.Proof.HostStretch
import proofs.«422061_j76020921139986_1_alg».proof.Proof.Spec

noncomputable section

namespace Cert.KernelIdeal.Network

open Cert.KernelIdeal Cert.KernelIdeal.Gen
open Idealize.ShloMosaic Idealize.ShloMosaic.TcCoe

/-- The first layer's output: `hidden1` over the neighbour sums of `x` along the edges `e`. -/
def firstLayer (x : FVec Ideal S50000x256 .f32) (e : IVec S2x800000 32) (w1l : FVec Ideal S128x256 .f32) (b1 : FVec Ideal S128 .f32)
    (w1r : FVec Ideal S128x256 .f32) : FVec Ideal S50000x128 .f32 :=
  Cert.Sage.hidden1
    (HostStretch.added256 (HostStretch.dstIds e)
      (Host.gather gather_S50000x256_S800000x1_S800000x256_1_0_n_n_0_1_1256 x (TakeFill.wrapCol (HostStretch.srcIds e))))
    (HostStretch.degreeCol (HostStretch.dstIds e)) x w1l w1r b1

/-- The network's output: `projected` over the neighbour sums of the first layer's output along the same edges. -/
def output (x : FVec Ideal S50000x256 .f32) (e : IVec S2x800000 32) (w1l : FVec Ideal S128x256 .f32) (b1 : FVec Ideal S128 .f32)
    (w1r : FVec Ideal S128x256 .f32) (w2l : FVec Ideal S256x128 .f32) (b2 : FVec Ideal S256 .f32) (w2r : FVec Ideal S256x128 .f32)
    (wp : FVec Ideal S384x256 .f32) (bp : FVec Ideal S384 .f32) : FVec Ideal S50000x384 .f32 :=
  Cert.Sage.projected
    (HostStretch.added128 (HostStretch.dstIds e)
      (Host.gather gather_S50000x128_S800000x1_S800000x128_1_0_n_n_0_1_1128 (firstLayer x e w1l b1 w1r) (TakeFill.wrapCol (HostStretch.srcIds e))))
    (HostStretch.degreeCol (HostStretch.dstIds e)) (firstLayer x e w1l b1 w1r) w2l w2r b2 wp bp

end Cert.KernelIdeal.Network

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.LibColumnForms.lean ====
/-
  The two layout steps of a `keepdims` reduction along the lanes, read at an index: a vector of `a` row results cast to
  the column `[a, 1]`, and that column broadcast along the lanes to `[a, b]`. Composed, every entry of row `p` of the
  result is the row's one reduced value.
-/
import Idealize.ShloMosaic.Lib.Pipeline.Value
import Idealize.ShloMosaic.Lib.ValueIdx

noncomputable section

open Idealize.ShloMosaic Idealize.ShloMosaic.ValueIdx

namespace Cert.LibColumnForms

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnForms

end
-- ==== Proof.Layer1.lean ====
/-
  What the first pallas_call leaves in its output array: the first layer's output, as a function of the arrays the
  region finds at its windows.
-/
import proofs.«422061_j76020921139986_1_alg».proof.Proof.Gen.KernelIdeal.Frame
import proofs.«422061_j76020921139986_1_alg».proof.Proof.Spec
import proofs.«422061_j76020921139986_1_alg».proof.Proof.LibPlainMatmul
import proofs.«422061_j76020921139986_1_alg».proof.Proof.LibColumnForms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.KernelIdeal.Layer1

open Cert.KernelIdeal Cert.KernelIdeal.Gen

/-! ## The body's arithmetic at one entry -/

/-- The product record keeps the left operand's rows, -/
theorem dot_lhs_row (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- contracts the left operand's columns -/
theorem dot_lhs_col (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
/-- with the right operand's rows, -/
theorem dot_rhs_row (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
/-- and keeps the right operand's columns. -/
theorem dot_rhs_col (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- A block of rows times a transposed weight matrix, accumulated into zero, at row `p` and output feature `o`:
    the row's inner product with the weight's row `o`. -/
theorem rows_times_transposed {φ : FTy} (A : FVec Ideal S2000x256 φ) (W : FVec Ideal S128x256 φ) (p : Fin 2000) (o : Fin 128) :
    matmul dot_S2000x256_S256x128_S2000x128_1_0_0_1_n_n none A (transpose S256x128 [1, 0] W transposes_S128x256_p1_0_S256x128)
        (constant (F := Ideal) S2000x128 .f32 0x00000000#32) (ix2 p o)
      = ∑ k : Fin 256, A (ix2 p k) * W (ix2 o k) := by
  refine (Cert.LibPlainMatmul.matmul_zero_apply dot_S2000x256_S256x128_S2000x128_1_0_0_1_n_n none rfl rfl
    dot_lhs_row dot_lhs_col dot_rhs_row dot_rhs_col A _ p o).trans ?_
  refine Finset.sum_congr rfl fun k _ => ?_
  exact congrArg (A (ix2 p k) * ·) (transpose_ix2_apply W transposes_S128x256_p1_0_S256x128 k o)

/-- The mean of a node's neighbours: its sum row divided by its degree raised to at least one, the degree column
    broadcast along the features; the casts to the same shape and the truncation change nothing. -/
theorem mean_at (d : Vec Ideal S2000x1 .f32) (a : Vec Ideal S2000x256 .f32) (p : Fin 2000) (k : Fin 256) :
    (truncf .bf16 (divf (shapeCast S2000x256 a shapeCasts_S2000x256_S2000x256)
        (broadcastTo S2000x256 (maximumf (shapeCast S2000x1 d shapeCasts_S2000x1_S2000x1)
            (broadcast S2000x1 (Scalar.ofBits (F := Ideal) .f32 0x3F800000#32))) broadcasts_S2000x1_S2000x256)) bitsLt_bf16_f32
      : FVec Ideal S2000x256 .bf16) (ix2 p k)
      = Ideal.div (a (ix2 p k)) (max (d (ix2 p (0 : Fin 1))) Cert.Sage.one) := by
  rw [shapeCast_self, shapeCast_self]
  show Ideal.div (a (ix2 p k)) (broadcastTo S2000x256 _ broadcasts_S2000x1_S2000x256 (ix2 p k)) = _
  rw [Cert.LibColumnForms.broadcastTo_a1_ab_apply]
  rfl

/-- The bias vector as a row, broadcast over the nodes, reads the bias of the output feature. -/
theorem bias_at (b : Vec Ideal S128 .f32) (p : Fin 2000) (o : Fin 128) :
    broadcastTo S2000x128 (shapeCast S1x128 b shapeCasts_S128_S1x128) broadcasts_S1x128_S2000x128 (ix2 p o) = b (ix1 o) :=
  (broadcastTo_1b_ab_apply _ broadcasts_S1x128_S2000x128 p o).trans (shapeCast_a_1a_apply b shapeCasts_S128_S1x128 0 o)

/-- One entry of what the body stores: the layer's entry `max (conv …) 0` of row `p` of the blocks and row `o` of the
    weights. Truncation is the identity on the extended reals; the degree column is broadcast along the features, the
    bias row along the nodes. -/
theorem payload_at (d : Vec Ideal S2000x1 .f32) (a x : Vec Ideal S2000x256 .f32) (wl wr : Vec Ideal S128x256 .f32)
    (b : Vec Ideal S128 .f32) (p : Fin 2000) (o : Fin 128) :
    k0_pay1 (F := Ideal) d a x wl wr b (ix2 p o)
      = max (Cert.Sage.conv (fun k : Fin 256 => a (ix2 p k)) (d (ix2 p (0 : Fin 1))) (fun k => x (ix2 p k))
          (fun k => wl (ix2 o k)) (fun k => wr (ix2 o k)) (b (ix1 o))) Cert.Sage.zero := by
  unfold k0_pay1
  dsimp only
  refine (maximumf_apply _ _ _).trans (congrArg₂ max ?_ rfl)
  unfold Cert.Sage.conv
  refine (addf_apply _ _ _).trans (congrArg₂ (· + ·) ((addf_apply _ _ _).trans (congrArg₂ (· + ·) ?_ ?_)) (bias_at b p o))
  · refine (rows_times_transposed _ _ p o).trans (Finset.sum_congr rfl fun k _ => ?_)
    exact congrArg (· * wl (ix2 o k)) (mean_at d a p k)
  · exact rows_times_transposed _ _ p o

/-! ## The windows' blocks, read off the arrays -/

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a <;> rfl

/-- The windows' block numbers at grid point `t`: the three node-indexed inputs and the output are at row block `t`,
    the two weight matrices and the bias are whole. -/
theorem block_numbers : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of the neighbour-sum block of point `t` is row `2000 t + p` of the neighbour sums. -/
theorem sums_block (c : Dev nD) (t : Fin cfg0.N) (p : Fin 2000) (k : Fin 256) (r : Fin 50000) (hr : r.val = t.val * 2000 + p.val) :
    (iblk0 V c 0 t : Vec Ideal S2000x256 .f32) (ix2 p k) = (V c main_v7 : S50000x256.Idx → EReal) (ix2 r k) := by
  obtain ⟨e0, e1, -⟩ := block_numbers t
  unfold iblk0
  rw [View.read_apply]
  show V c main_v7 _ = V c main_v7 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 256 + 1 * k.val = k.val; rw [e1]; omega

/-- Row `p` of the degree block of point `t` is row `2000 t + p` of the degree column. -/
theorem degree_block (c : Dev nD) (t : Fin cfg0.N) (p : Fin 2000) (r : Fin 50000) (hr : r.val = t.val * 2000 + p.val) :
    (iblk0 V c 1 t : Vec Ideal S2000x1 .f32) (ix2 p (0 : Fin 1)) = (V c main_v12 : S50000x1.Idx → EReal) (ix2 r (0 : Fin 1)) := by
  obtain ⟨-, -, e0, e1, -⟩ := block_numbers t
  unfold iblk0
  rw [View.read_apply]
  show V c main_v12 _ = V c main_v12 _
  congr 1
  funext a
  apply Fin.ext
  match a with
  | ⟨0, _⟩ => show win0_1.index t (0 : Fin 2) * 2000 + 1 * p.val = r.val; rw [e0, hr]; omega
  | ⟨1, _⟩ => show win0_1.index t (1 : Fin 2) * 1 + 1 * 0 = 0; rw [e1]

/-- Row `p` of the feature block of point `t` is row `2000 t + p` of the node features. -/
theorem self_block (c : Dev nD) (t : Fin cfg0.N) (p : Fin 2000) (k : Fin 256) (r : Fin 50000) (hr : r.val = t.val * 2000 + p.val) :
    (iblk0 V c 2 t : Vec Ideal S2000x256 .f32) (ix2 p k) = (V c main_arg0 : S50000x256.Idx → EReal) (ix2 r k) := by
  obtain ⟨-, -, -, -, e0, e1, -⟩ := block_numbers t
  unfold iblk0
  rw [View.read_apply]
  show V c main_arg0 _ = V c main_arg0 _
  congr 1
  funext a
  apply Fin.ext
  match a with
  | ⟨0, _⟩ => show win0_2.index t (0 : Fin 2) * 2000 + 1 * p.val = r.val; rw [e0, hr]; omega
  | ⟨1, _⟩ => show win0_2.index t (1 : Fin 2) * 256 + 1 * k.val = k.val; rw [e1]; omega

/-- The neighbour weights' one block is the whole matrix. -/
theorem wl_block (c : Dev nD) (t : Fin cfg0.N) :
    (iblk0 V c 3 t : Vec Ideal S128x256 .f32) = (V c main_arg2 : S128x256.Idx → EReal) := by
  obtain ⟨-, -, -, -, -, -, e0, e1, -⟩ := block_numbers t
  funext y
  unfold iblk0
  rw [View.read_apply]
  show V c main_arg2 _ = V c main_arg2 y
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 256 + 1 * (y 1).val = (y 1).val; rw [e1]; omega

/-- The bias's one block is the whole vector. -/
theorem bias_block (c : Dev nD) (t : Fin cfg0.N) :
    (iblk0 V c 4 t : Vec Ideal S128 .f32) = (V c main_arg3 : S128.Idx → EReal) := by
  obtain ⟨-, -, -, -, -, -, -, -, e0, -⟩ := block_numbers t
  funext y
  unfold iblk0
  rw [View.read_apply]
  show V c main_arg3 _ = V c main_arg3 y
  congr 1
  funext a
  apply Fin.ext
  match a with
  | ⟨0, _⟩ => show win0_4.index t (0 : Fin 1) * 128 + 1 * (y 0).val = (y 0).val; rw [e0]; omega

/-- The node's own weights' one block is the whole matrix. -/
theorem wr_block (c : Dev nD) (t : Fin cfg0.N) :
    (iblk0 V c 5 t : Vec Ideal S128x256 .f32) = (V c main_arg4 : S128x256.Idx → EReal) := by
  obtain ⟨-, -, -, -, -, -, -, -, -, e0, e1, -⟩ := block_numbers t
  funext y
  unfold iblk0
  rw [View.read_apply]
  show V c main_arg4 _ = V c main_arg4 y
  congr 1
  funext a
  apply Fin.ext
  match a with
  | ⟨0, _⟩ => show win0_5.index t (0 : Fin 2) * 128 + 1 * (y 0).val = (y 0).val; rw [e0]; omega
  | ⟨1, _⟩ => show win0_5.index t (1 : Fin 2) * 256 + 1 * (y 1).val = (y 1).val; rw [e1]; omega

/-! ## What a point writes back, and the array after the region -/

/-- One entry of the stored block, from blocks that are rows `2000 t …` of the node arrays and the whole weights: the
    first layer's output at that node. -/
theorem entry_of_rows (A : S50000x256.Idx → EReal) (D : S50000x1.Idx → EReal) (X : S50000x256.Idx → EReal)
    (Wl Wr : S128x256.Idx → EReal) (B : S128.Idx → EReal)
    (d : Vec Ideal S2000x1 .f32) (a x : Vec Ideal S2000x256 .f32) (wl wr : Vec Ideal S128x256 .f32) (b : Vec Ideal S128 .f32)
    (p : Fin 2000) (o : Fin 128) (r : Fin 50000)
    (ha : ∀ k : Fin 256, a (ix2 p k) = A (ix2 r k))
    (hd : d (ix2 p (0 : Fin 1)) = D (ix2 r (0 : Fin 1)))
    (hx : ∀ k : Fin 256, x (ix2 p k) = X (ix2 r k))
    (hwl : wl = Wl) (hwr : wr = Wr) (hb : b = B) :
    k0_pay1 (F := Ideal) d a x wl wr b (ix2 p o) = Cert.Sage.hidden1 A D X Wl Wr B (ix2 r o) := by
  subst hwl hwr hb
  refine (payload_at d a x wl wr b p o).trans ?_
  show _ = Cert.Sage.hidden1At A D X wl wr b r o
  unfold Cert.Sage.hidden1At
  rw [hd, funext ha, funext hx]

/-- Entry `(p, o)` of the output's block of point `t` is entry `(2000 t + p, o)` of the output array. -/
theorem out_block_index (t : Fin cfg0.N) (p : Fin 2000) (o : Fin 128) (r : Fin 50000) (hr : r.val = t.val * 2000 + p.val) :
    (((cfg0.win 6).blk t).view.emb (ix2 p o) : S50000x128.Idx) = ix2 r o := by
  obtain ⟨-, -, -, -, -, -, -, -, -, -, -, e0, e1⟩ := block_numbers t
  funext a
  apply Fin.ext
  match a with
  | ⟨0, _⟩ => show win0_6.index t (0 : Fin 2) * 2000 + 1 * p.val = r.val; rw [e0, hr]; omega
  | ⟨1, _⟩ => show win0_6.index t (1 : Fin 2) * 128 + 1 * o.val = o.val; rw [e1]; omega

/-- What point `t` writes back is block `t` of the first layer's output of the arrays the region finds. -/
theorem flushed_eq (c : Dev nD) (t : Fin cfg0.N) :
    (dat0 (F := Ideal) V c).flushed 6 t = ((cfg0.win 6).blk t).view.read (Elt Ideal)
      (Cert.Sage.hidden1 (V c main_v7) (V c main_v12) (V c main_arg0) (V c main_arg2) (V c main_arg4) (V c main_arg3)) := by
  show (cfg0.win 6).cut (grid0.coords t) ((dat0 (F := Ideal) V c).after 6 t) = _
  rw [after0_6]
  unfold out0_6
  rw [View.canon_unit_zero zero_offsets2]
  simp only [View.ld_unit_zero (S := S2000x1) zero_offsets2, View.ld_unit_zero (S := S2000x256) zero_offsets2,
    View.ld_unit_zero (S := S128x256) zero_offsets2, View.ld_unit_zero (S := S128) zero_offsets1]
  funext j
  obtain ⟨p, o, rfl⟩ : ∃ (p : Fin 2000) (o : Fin 128), j = ix2 p o := ⟨j 0, j 1, eq_ix2 j⟩
  have ht : t.val < 25 := by have h := t.isLt; have hN : cfg0.N = 25 := N_0; omega
  have hr : t.val * 2000 + p.val < 50000 := by have := p.isLt; omega
  show k0_pay1 (F := Ideal) (iblk0 V c 1 t) (iblk0 V c 0 t) (iblk0 V c 2 t) (iblk0 V c 3 t) (iblk0 V c 5 t) (iblk0 V c 4 t) (ix2 p o)
    = Cert.Sage.hidden1 (V c main_v7) (V c main_v12) (V c main_arg0) (V c main_arg2) (V c main_arg4) (V c main_arg3)
        (((cfg0.win 6).blk t).view.emb (ix2 p o))
  refine (entry_of_rows (V c main_v7) (V c main_v12) (V c main_arg0) (V c main_arg2) (V c main_arg4) (V c main_arg3)
    (iblk0 V c 1 t) (iblk0 V c 0 t) (iblk0 V c 2 t) (iblk0 V c 3 t) (iblk0 V c 5 t) (iblk0 V c 4 t) p o ⟨t.val * 2000 + p.val, hr⟩
    (fun k => sums_block V c t p k ⟨t.val * 2000 + p.val, hr⟩ rfl) (degree_block V c t p ⟨t.val * 2000 + p.val, hr⟩ rfl)
    (fun k => self_block V c t p k ⟨t.val * 2000 + p.val, hr⟩ rfl)
    (wl_block V c t) (wr_block V c t) (bias_block V c t)).trans ?_
  exact congrArg (Cert.Sage.hidden1 (V c main_v7) (V c main_v12) (V c main_arg0) (V c main_arg2) (V c main_arg4) (V c main_arg3))
    (out_block_index t p o ⟨t.val * 2000 + p.val, hr⟩ rfl).symm

/-- An index of the output array is in point `t`'s block iff each coordinate is in the block's range on its axis. -/
theorem mem_out_block (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v13).slice (win0_6.rect t)).set ↔ _
  rw [View.set_slice_whole, Rect.mem_set_unit]
  exact Iff.rfl

/-- The blocks tile the output: node `r` is written back by point `r / 2000`. -/
theorem covered (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ : ∃ t : Fin cfg0.N, t.val = (i 0).val / 2000 := ⟨⟨(i 0).val / 2000, by rw [show cfg0.N = 25 from N_0]; omega⟩, rfl⟩
  obtain ⟨-, -, -, -, -, -, -, -, -, -, -, e0, e1⟩ := block_numbers t
  refine ⟨t, flush0_6 t, ?_⟩
  rw [mem_out_block]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- The first region's output array after the region, whatever the region found at its windows. -/
theorem final (c : Dev nD) :
    (dat0 (F := Ideal) V c).arrAt 6 cfg0.N
      = Cert.Sage.hidden1 (V c main_v7) (V c main_v12) (V c main_arg0) (V c main_arg2) (V c main_arg4) (V c main_arg3) :=
  (dat0 (F := Ideal) V c).arrAt_eq_of_cover 6
    (Cert.Sage.hidden1 (V c main_v7) (V c main_v12) (V c main_arg0) (V c main_arg2) (V c main_arg4) (V c main_arg3))
    (fun t _ => flushed_eq V c t) covered

end Cert.KernelIdeal.Layer1

end
-- ==== Proof.Layer2.lean ====
/-
  What the second pallas_call leaves in its output array: the network's output, as a function of the arrays the region
  finds at its windows.
-/
import proofs.«422061_j76020921139986_1_alg».proof.Proof.Gen.KernelIdeal.Frame
import proofs.«422061_j76020921139986_1_alg».proof.Proof.Spec
import proofs.«422061_j76020921139986_1_alg».proof.Proof.LibPlainMatmul
import proofs.«422061_j76020921139986_1_alg».proof.Proof.LibColumnForms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.KernelIdeal.Layer2

open Cert.KernelIdeal Cert.KernelIdeal.Gen

/-! ## The two contractions: row of the left operand against column of the right -/

theorem lhs_hidden_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_hidden_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_hidden_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_hidden_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

theorem lhs_proj_0 (i : S2000x384.Idx) (q : dot_S2000x256_S256x384_S2000x384_1_0_0_1_n_n.contr.Idx) :
    (dot_S2000x256_S256x384_S2000x384_1_0_0_1_n_n.lhsIdx i q 0).val = (i 0).val := by
  unfold DotDims.lhsIdx
  rw [dif_neg (show ¬(0 : Fin S2000x256.rank) ∈ dot_S2000x256_S256x384_S2000x384_1_0_0_1_n_n.lhsBatch by decide), dif_pos (show (0 : Fin S2000x256.rank) ∈ dot_S2000x256_S256x384_S2000x384_1_0_0_1_n_n.lhsNonContracting by decide)]
  rfl
theorem lhs_proj_1 (i : S2000x384.Idx) (q : dot_S2000x256_S256x384_S2000x384_1_0_0_1_n_n.contr.Idx) :
    (dot_S2000x256_S256x384_S2000x384_1_0_0_1_n_n.lhsIdx i q 1).val = (q ⟨0, by decide⟩).val :=
  dot_S2000x256_S256x384_S2000x384_1_0_0_1_n_n.lhsIdx_val_of_single rfl i q
theorem rhs_proj_0 (i : S2000x384.Idx) (q : dot_S2000x256_S256x384_S2000x384_1_0_0_1_n_n.contr.Idx) :
    (dot_S2000x256_S256x384_S2000x384_1_0_0_1_n_n.rhsIdx i q 0).val = (q ⟨0, by decide⟩).val :=
  dot_S2000x256_S256x384_S2000x384_1_0_0_1_n_n.rhsIdx_val_of_single rfl i q
theorem rhs_proj_1 (i : S2000x384.Idx) (q : dot_S2000x256_S256x384_S2000x384_1_0_0_1_n_n.contr.Idx) :
    (dot_S2000x256_S256x384_S2000x384_1_0_0_1_n_n.rhsIdx i q 1).val = (i 1).val := by
  unfold DotDims.rhsIdx
  rw [dif_neg (show ¬(1 : Fin S256x384.rank) ∈ dot_S2000x256_S256x384_S2000x384_1_0_0_1_n_n.rhsBatch by decide), dif_pos (show (1 : Fin S256x384.rank) ∈ dot_S2000x256_S256x384_S2000x384_1_0_0_1_n_n.rhsNonContracting by decide)]
  rfl

/-- The second layer's contraction (128 features) read at a node and an output feature. -/
theorem hidden_matmul_apply (A : FVec Ideal S2000x128 .bf16) (B : FVec Ideal S128x256 .bf16) (p : Fin 2000) (c : Fin 256) :
    matmul dot_S2000x128_S128x256_S2000x256_1_0_0_1_n_n none A B (constant (F := Ideal) S2000x256 .f32 0x00000000#32) (ix2 p c)
      = ∑ k : Fin 128, A (ix2 p k) * B (ix2 k c) :=
  Cert.LibPlainMatmul.matmul_zero_apply dot_S2000x128_S128x256_S2000x256_1_0_0_1_n_n none rfl rfl
    lhs_hidden_0 lhs_hidden_1 rhs_hidden_0 rhs_hidden_1 A B p c

/-- The last linear map's contraction (256 features) read at a node and an output feature. -/
theorem proj_matmul_apply (A : FVec Ideal S2000x256 .bf16) (B : FVec Ideal S256x384 .bf16) (p : Fin 2000) (o : Fin 384) :
    matmul dot_S2000x256_S256x384_S2000x384_1_0_0_1_n_n none A B (constant (F := Ideal) S2000x384 .f32 0x00000000#32) (ix2 p o)
      = ∑ k : Fin 256, A (ix2 p k) * B (ix2 k o) :=
  Cert.LibPlainMatmul.matmul_zero_apply dot_S2000x256_S256x384_S2000x384_1_0_0_1_n_n none rfl rfl
    lhs_proj_0 lhs_proj_1 rhs_proj_0 rhs_proj_1 A B p o

/-! ## The body's arithmetic at an index -/

/-- The mean-aggregated neighbour features at node `p`, feature `k`: the neighbour sum over the degree clamped below by `x`. -/
theorem mean_at (d : Vec Ideal S2000x1 .f32) (a : Vec Ideal S2000x128 .f32) (x : Ideal .f32) (p : Fin 2000) (k : Fin 128) :
    (truncf .bf16 (divf (shapeCast S2000x128 a shapeCasts_S2000x128_S2000x128)
        (broadcastTo S2000x128 (maximumf (shapeCast S2000x1 d shapeCasts_S2000x1_S2000x1) (broadcast S2000x1 x))
          broadcasts_S2000x1_S2000x128)) bitsLt_bf16_f32 : FVec Ideal S2000x128 .bf16) (ix2 p k)
      = Ideal.div (a (ix2 p k)) (max (d (ix2 p (0 : Fin 1))) x) := by
  rw [shapeCast_self, shapeCast_self]
  show Ideal.div (a (ix2 p k)) (broadcastTo S2000x128 (maximumf d (broadcast S2000x1 x)) broadcasts_S2000x1_S2000x128 (ix2 p k)) = _
  rw [Cert.LibColumnForms.broadcastTo_a1_ab_apply]
  rfl

/-- A weight matrix `[256, 128]` (output feature by input feature), narrowed and transposed, read at (input, output). -/
theorem weight_at (w : Vec Ideal S256x128 .f32) (k : Fin 128) (c : Fin 256) :
    (transpose S128x256 [1, 0] (truncf .bf16 w bitsLt_bf16_f32 : FVec Ideal S256x128 .bf16) transposes_S256x128_p1_0_S128x256) (ix2 k c)
      = w (ix2 c k) :=
  transpose_ix2_apply _ _ k c

/-- The last map's weights `[384, 256]`, narrowed and transposed, read at (hidden feature, output feature). -/
theorem proj_weight_at (w : Vec Ideal S384x256 .f32) (c : Fin 256) (o : Fin 384) :
    (transpose S256x384 [1, 0] (truncf .bf16 w bitsLt_bf16_f32 : FVec Ideal S384x256 .bf16) transposes_S384x256_p1_0_S256x384) (ix2 c o)
      = w (ix2 o c) :=
  transpose_ix2_apply _ _ c o

/-- A bias vector laid along the rows of a block reads its own entry in every row. -/
theorem bias256_at (b : Vec Ideal S256 .f32) (p : Fin 2000) (c : Fin 256) :
    broadcastTo S2000x256 (shapeCast S1x256 b shapeCasts_S256_S1x256) broadcasts_S1x256_S2000x256 (ix2 p c) = b (ix1 c) :=
  (broadcastTo_1b_ab_apply _ _ p c).trans (shapeCast_a_1a_apply b _ 0 c)

theorem bias384_at (b : Vec Ideal S384 .f32) (p : Fin 2000) (o : Fin 384) :
    broadcastTo S2000x384 (shapeCast S1x384 b shapeCasts_S384_S1x384) broadcasts_S1x384_S2000x384 (ix2 p o) = b (ix1 o) :=
  (broadcastTo_1b_ab_apply _ _ p o).trans (shapeCast_a_1a_apply b _ 0 o)

/-- The second layer's block as the body computes it from its loaded blocks: the two contractions added, the bias
    added, the rectifier. -/
def hiddenBlk (d : Vec Ideal S2000x1 .f32) (a h : Vec Ideal S2000x128 .f32) (wl wr : Vec Ideal S256x128 .f32)
    (b : Vec Ideal S256 .f32) : FVec Ideal S2000x256 .f32 :=
  maximumf
    (addf
      (addf
        (matmul dot_S2000x128_S128x256_S2000x256_1_0_0_1_n_n none
          (truncf .bf16 (divf (shapeCast S2000x128 a shapeCasts_S2000x128_S2000x128)
            (broadcastTo S2000x128 (maximumf (shapeCast S2000x1 d shapeCasts_S2000x1_S2000x1)
              (broadcast S2000x1 (Scalar.ofBits .f32 0x3F800000#32))) broadcasts_S2000x1_S2000x128)) bitsLt_bf16_f32)
          (transpose S128x256 [1, 0] (truncf .bf16 wl bitsLt_bf16_f32) transposes_S256x128_p1_0_S128x256)
          (constant S2000x256 .f32 0x00000000#32))
        (matmul dot_S2000x128_S128x256_S2000x256_1_0_0_1_n_n none
          (truncf .bf16 (shapeCast S2000x128 h shapeCasts_S2000x128_S2000x128) bitsLt_bf16_f32)
          (transpose S128x256 [1, 0] (truncf .bf16 wr bitsLt_bf16_f32) transposes_S256x128_p1_0_S128x256)
          (constant S2000x256 .f32 0x00000000#32)))
      (broadcastTo S2000x256 (shapeCast S1x256 b shapeCasts_S256_S1x256) broadcasts_S1x256_S2000x256))
    (broadcast S2000x256 (Scalar.ofBits .f32 0x00000000#32))

/-- The body's stored value is the second layer's block through the last linear map, its bias added. -/
theorem pay_eq (d : Vec Ideal S2000x1 .f32) (a h : Vec Ideal S2000x128 .f32) (wl wr : Vec Ideal S256x128 .f32)
    (b : Vec Ideal S256 .f32) (wp : Vec Ideal S384x256 .f32) (bp : Vec Ideal S384 .f32) :
    k1_pay1 (F := Ideal) d a h wl wr b wp bp
      = addf
          (matmul dot_S2000x256_S256x384_S2000x384_1_0_0_1_n_n none
            (truncf .bf16 (hiddenBlk d a h wl wr b) bitsLt_bf16_f32)
            (transpose S256x384 [1, 0] (truncf .bf16 wp bitsLt_bf16_f32) transposes_S384x256_p1_0_S256x384)
            (constant S2000x384 .f32 0x00000000#32))
          (broadcastTo S2000x384 (shapeCast S1x384 bp shapeCasts_S384_S1x384) broadcasts_S1x384_S2000x384) := rfl

/-- The second layer at node `p` of the block, feature `c`. -/
theorem hidden_at (d : Vec Ideal S2000x1 .f32) (a h : Vec Ideal S2000x128 .f32) (wl wr : Vec Ideal S256x128 .f32)
    (b : Vec Ideal S256 .f32) (p : Fin 2000) (c : Fin 256) :
    hiddenBlk d a h wl wr b (ix2 p c)
      = max (Cert.Sage.conv (fun k : Fin 128 => a (ix2 p k)) (d (ix2 p (0 : Fin 1))) (fun k => h (ix2 p k))
          (fun k => wl (ix2 c k)) (fun k => wr (ix2 c k)) (b (ix1 c))) Cert.Sage.zero := by
  unfold hiddenBlk Cert.Sage.conv
  refine (maximumf_apply _ _ _).trans ?_
  refine congrArg₂ max ?_ rfl
  refine (addf_apply _ _ _).trans ?_
  refine congrArg₂ (· + ·) ?_ (bias256_at b p c)
  refine (addf_apply _ _ _).trans ?_
  refine congrArg₂ (· + ·) ?_ ?_
  · refine (hidden_matmul_apply _ _ p c).trans ?_
    refine Finset.sum_congr rfl fun k _ => ?_
    rw [mean_at, weight_at]
    rfl
  · refine (hidden_matmul_apply _ _ p c).trans ?_
    refine Finset.sum_congr rfl fun k _ => ?_
    rw [weight_at, shapeCast_self]
    rfl

/-- The body's stored value at node `p` of the block, output feature `o`. -/
theorem pay_at (d : Vec Ideal S2000x1 .f32) (a h : Vec Ideal S2000x128 .f32) (wl wr : Vec Ideal S256x128 .f32)
    (b : Vec Ideal S256 .f32) (wp : Vec Ideal S384x256 .f32) (bp : Vec Ideal S384 .f32) (p : Fin 2000) (o : Fin 384) :
    k1_pay1 (F := Ideal) d a h wl wr b wp bp (ix2 p o)
      = (∑ c : Fin 256, max (Cert.Sage.conv (fun k : Fin 128 => a (ix2 p k)) (d (ix2 p (0 : Fin 1))) (fun k => h (ix2 p k))
          (fun k => wl (ix2 c k)) (fun k => wr (ix2 c k)) (b (ix1 c))) Cert.Sage.zero * wp (ix2 o c)) + bp (ix1 o) := by
  rw [pay_eq]
  refine (addf_apply _ _ _).trans ?_
  refine congrArg₂ (· + ·) ?_ (bias384_at bp p o)
  refine (proj_matmul_apply _ _ p o).trans ?_
  refine Finset.sum_congr rfl fun c _ => ?_
  rw [proj_weight_at, truncf_apply, hidden_at]

/-! ## The windows' blocks, read off the arrays -/

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a <;> rfl

/-- Block numbers at grid point `t`, window by window. The three node-indexed inputs and the output sit at row
    block `t`; -/
theorem number_sums : ∀ t : Fin cfg1.N, win1_0.index t (0 : Fin 2) = t.val ∧ win1_0.index t (1 : Fin 2) = 0 :=
  (by decide +kernel : ∀ t : Fin grid1.N, _)
theorem number_degree : ∀ t : Fin cfg1.N, win1_1.index t (0 : Fin 2) = t.val ∧ win1_1.index t (1 : Fin 2) = 0 :=
  (by decide +kernel : ∀ t : Fin grid1.N, _)
theorem number_self : ∀ t : Fin cfg1.N, win1_2.index t (0 : Fin 2) = t.val ∧ win1_2.index t (1 : Fin 2) = 0 :=
  (by decide +kernel : ∀ t : Fin grid1.N, _)
theorem number_out : ∀ t : Fin cfg1.N, win1_8.index t (0 : Fin 2) = t.val ∧ win1_8.index t (1 : Fin 2) = 0 :=
  (by decide +kernel : ∀ t : Fin grid1.N, _)
/-- the three weight matrices and the two biases are whole, at block zero. -/
theorem number_wl : ∀ t : Fin cfg1.N, win1_3.index t (0 : Fin 2) = 0 ∧ win1_3.index t (1 : Fin 2) = 0 :=
  (by decide +kernel : ∀ t : Fin grid1.N, _)
theorem number_bias : ∀ t : Fin cfg1.N, win1_4.index t (0 : Fin 1) = 0 :=
  (by decide +kernel : ∀ t : Fin grid1.N, _)
theorem number_wr : ∀ t : Fin cfg1.N, win1_5.index t (0 : Fin 2) = 0 ∧ win1_5.index t (1 : Fin 2) = 0 :=
  (by decide +kernel : ∀ t : Fin grid1.N, _)
theorem number_wp : ∀ t : Fin cfg1.N, win1_6.index t (0 : Fin 2) = 0 ∧ win1_6.index t (1 : Fin 2) = 0 :=
  (by decide +kernel : ∀ t : Fin grid1.N, _)
theorem number_bp : ∀ t : Fin cfg1.N, win1_7.index t (0 : Fin 1) = 0 :=
  (by decide +kernel : ∀ t : Fin grid1.N, _)

/-- Row `p` of the neighbour-sum block of point `t` is row `2000 t + p` of the second neighbour sums. -/
theorem sums_block (c : Dev nD) (t : Fin cfg1.N) (p : Fin 2000) (k : Fin 128) (r : Fin 50000) (hr : r.val = t.val * 2000 + p.val) :
    (iblk1 V c 0 t : Vec Ideal S2000x128 .f32) (ix2 p k) = (V c main_v17 : S50000x128.Idx → EReal) (ix2 r k) := by
  obtain ⟨e0, e1⟩ := number_sums t
  unfold iblk1
  rw [View.read_apply]
  show V c main_v17 _ = V c main_v17 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- Row `p` of the degree block of point `t` is row `2000 t + p` of the degree column. -/
theorem degree_block (c : Dev nD) (t : Fin cfg1.N) (p : Fin 2000) (r : Fin 50000) (hr : r.val = t.val * 2000 + p.val) :
    (iblk1 V c 1 t : Vec Ideal S2000x1 .f32) (ix2 p (0 : Fin 1)) = (V c main_v12 : S50000x1.Idx → EReal) (ix2 r (0 : Fin 1)) := by
  obtain ⟨e0, e1⟩ := number_degree t
  unfold iblk1
  rw [View.read_apply]
  show V c main_v12 _ = V c main_v12 _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 1 + 1 * 0 = 0; rw [e1]

/-- Row `p` of the first layer's block of point `t` is row `2000 t + p` of the first layer's output. -/
theorem self_block (c : Dev nD) (t : Fin cfg1.N) (p : Fin 2000) (k : Fin 128) (r : Fin 50000) (hr : r.val = t.val * 2000 + p.val) :
    (iblk1 V c 2 t : Vec Ideal S2000x128 .f32) (ix2 p k) = (V c main_v13 : S50000x128.Idx → EReal) (ix2 r k) := by
  obtain ⟨e0, e1⟩ := number_self t
  unfold iblk1
  rw [View.read_apply]
  show V c main_v13 _ = V c main_v13 _
  congr 1
  funext a
  apply Fin.ext
  match a with
  | ⟨0, _⟩ => show win1_2.index t (0 : Fin 2) * 2000 + 1 * p.val = r.val; rw [e0, hr]; omega
  | ⟨1, _⟩ => show win1_2.index t (1 : Fin 2) * 128 + 1 * k.val = k.val; rw [e1]; omega

/-- The neighbour weights' one block is the whole matrix. -/
theorem wl_block (c : Dev nD) (t : Fin cfg1.N) :
    (iblk1 V c 3 t : Vec Ideal S256x128 .f32) = (V c main_arg5 : S256x128.Idx → EReal) := by
  obtain ⟨e0, e1⟩ := number_wl t
  funext y
  unfold iblk1
  rw [View.read_apply]
  show V c main_arg5 _ = V c main_arg5 y
  congr 1
  funext a
  apply Fin.ext
  match a with
  | ⟨0, _⟩ => show win1_3.index t (0 : Fin 2) * 256 + 1 * (y 0).val = (y 0).val; rw [e0]; omega
  | ⟨1, _⟩ => show win1_3.index t (1 : Fin 2) * 128 + 1 * (y 1).val = (y 1).val; rw [e1]; omega

/-- The second layer's bias's one block is the whole vector. -/
theorem bias_block (c : Dev nD) (t : Fin cfg1.N) :
    (iblk1 V c 4 t : Vec Ideal S256 .f32) = (V c main_arg6 : S256.Idx → EReal) := by
  have e0 := number_bias t
  funext y
  unfold iblk1
  rw [View.read_apply]
  show V c main_arg6 _ = V c main_arg6 y
  congr 1
  funext a
  apply Fin.ext
  match a with
  | ⟨0, _⟩ => show win1_4.index t (0 : Fin 1) * 256 + 1 * (y 0).val = (y 0).val; rw [e0]; omega

/-- The node's own weights' one block is the whole matrix. -/
theorem wr_block (c : Dev nD) (t : Fin cfg1.N) :
    (iblk1 V c 5 t : Vec Ideal S256x128 .f32) = (V c main_arg7 : S256x128.Idx → EReal) := by
  obtain ⟨e0, e1⟩ := number_wr t
  funext y
  unfold iblk1
  rw [View.read_apply]
  show V c main_arg7 _ = V c main_arg7 y
  congr 1
  funext a
  apply Fin.ext
  match a with
  | ⟨0, _⟩ => show win1_5.index t (0 : Fin 2) * 256 + 1 * (y 0).val = (y 0).val; rw [e0]; omega
  | ⟨1, _⟩ => show win1_5.index t (1 : Fin 2) * 128 + 1 * (y 1).val = (y 1).val; rw [e1]; omega

/-- The last map's weights' one block is the whole matrix. -/
theorem wp_block (c : Dev nD) (t : Fin cfg1.N) :
    (iblk1 V c 6 t : Vec Ideal S384x256 .f32) = (V c main_arg8 : S384x256.Idx → EReal) := by
  obtain ⟨e0, e1⟩ := number_wp t
  funext y
  unfold iblk1
  rw [View.read_apply]
  show V c main_arg8 _ = V c main_arg8 y
  congr 1
  funext a
  apply Fin.ext
  match a with
  | ⟨0, _⟩ => show win1_6.index t (0 : Fin 2) * 384 + 1 * (y 0).val = (y 0).val; rw [e0]; omega
  | ⟨1, _⟩ => show win1_6.index t (1 : Fin 2) * 256 + 1 * (y 1).val = (y 1).val; rw [e1]; omega

/-- The last map's bias's one block is the whole vector. -/
theorem bp_block (c : Dev nD) (t : Fin cfg1.N) :
    (iblk1 V c 7 t : Vec Ideal S384 .f32) = (V c main_arg9 : S384.Idx → EReal) := by
  have e0 := number_bp t
  funext y
  unfold iblk1
  rw [View.read_apply]
  show V c main_arg9 _ = V c main_arg9 y
  congr 1
  funext a
  apply Fin.ext
  match a with
  | ⟨0, _⟩ => show win1_7.index t (0 : Fin 1) * 384 + 1 * (y 0).val = (y 0).val; rw [e0]; omega

/-! ## What a point writes back, and the array after the region -/

/-- One entry of the stored block, from blocks that are rows `2000 t …` of the node arrays and the whole weights and
    biases: the network's output at that node. -/
theorem entry_of_rows (A : S50000x128.Idx → EReal) (D : S50000x1.Idx → EReal) (H : S50000x128.Idx → EReal)
    (Wl Wr : S256x128.Idx → EReal) (B : S256.Idx → EReal) (Wp : S384x256.Idx → EReal) (Bp : S384.Idx → EReal)
    (d : Vec Ideal S2000x1 .f32) (a h : Vec Ideal S2000x128 .f32) (wl wr : Vec Ideal S256x128 .f32) (b : Vec Ideal S256 .f32)
    (wp : Vec Ideal S384x256 .f32) (bp : Vec Ideal S384 .f32)
    (p : Fin 2000) (o : Fin 384) (r : Fin 50000)
    (ha : ∀ k : Fin 128, a (ix2 p k) = A (ix2 r k))
    (hd : d (ix2 p (0 : Fin 1)) = D (ix2 r (0 : Fin 1)))
    (hh : ∀ k : Fin 128, h (ix2 p k) = H (ix2 r k))
    (hwl : wl = Wl) (hwr : wr = Wr) (hb : b = B) (hwp : wp = Wp) (hbp : bp = Bp) :
    k1_pay1 (F := Ideal) d a h wl wr b wp bp (ix2 p o) = Cert.Sage.projected A D H Wl Wr B Wp Bp (ix2 r o) := by
  subst hwl hwr hb hwp hbp
  refine (pay_at d a h wl wr b wp bp p o).trans ?_
  show _ = Cert.Sage.projectedAt A D H wl wr b wp bp r o
  unfold Cert.Sage.projectedAt Cert.Sage.hidden2At
  rw [hd, funext ha, funext hh]

/-- Entry `(p, o)` of the output's block of point `t` is entry `(2000 t + p, o)` of the output array. -/
theorem out_block_index (t : Fin cfg1.N) (p : Fin 2000) (o : Fin 384) (r : Fin 50000) (hr : r.val = t.val * 2000 + p.val) :
    (((cfg1.win 8).blk t).view.emb (ix2 p o) : S50000x384.Idx) = ix2 r o := by
  obtain ⟨e0, e1⟩ := number_out t
  funext a
  apply Fin.ext
  match a with
  | ⟨0, _⟩ => show win1_8.index t (0 : Fin 2) * 2000 + 1 * p.val = r.val; rw [e0, hr]; omega
  | ⟨1, _⟩ => show win1_8.index t (1 : Fin 2) * 384 + 1 * o.val = o.val; rw [e1]; omega

/-- What point `t` writes back is block `t` of the network's output of the arrays the region finds. -/
theorem flushed_eq (c : Dev nD) (t : Fin cfg1.N) :
    (dat1 (F := Ideal) V c).flushed 8 t = ((cfg1.win 8).blk t).view.read (Elt Ideal)
      (Cert.Sage.projected (V c main_v17) (V c main_v12) (V c main_v13) (V c main_arg5) (V c main_arg7) (V c main_arg6) (V c main_arg8) (V c main_arg9)) := by
  show (cfg1.win 8).cut (grid1.coords t) ((dat1 (F := Ideal) V c).after 8 t) = _
  rw [after1_8]
  unfold out1_8
  rw [View.canon_unit_zero zero_offsets2]
  simp only [View.ld_unit_zero (S := S2000x1) zero_offsets2, View.ld_unit_zero (S := S2000x128) zero_offsets2,
    View.ld_unit_zero (S := S256x128) zero_offsets2, View.ld_unit_zero (S := S256) zero_offsets1,
    View.ld_unit_zero (S := S384x256) zero_offsets2, View.ld_unit_zero (S := S384) zero_offsets1]
  funext j
  obtain ⟨p, o, rfl⟩ : ∃ (p : Fin 2000) (o : Fin 384), j = ix2 p o := ⟨j 0, j 1, eq_ix2 j⟩
  have ht : t.val < 25 := by have h := t.isLt; have hN : cfg1.N = 25 := N_1; omega
  have hr : t.val * 2000 + p.val < 50000 := by have := p.isLt; omega
  show k1_pay1 (F := Ideal) (iblk1 V c 1 t) (iblk1 V c 0 t) (iblk1 V c 2 t) (iblk1 V c 3 t) (iblk1 V c 5 t) (iblk1 V c 4 t)
      (iblk1 V c 6 t) (iblk1 V c 7 t) (ix2 p o)
    = Cert.Sage.projected (V c main_v17) (V c main_v12) (V c main_v13) (V c main_arg5) (V c main_arg7) (V c main_arg6) (V c main_arg8) (V c main_arg9)
        (((cfg1.win 8).blk t).view.emb (ix2 p o))
  refine (entry_of_rows (V c main_v17) (V c main_v12) (V c main_v13) (V c main_arg5) (V c main_arg7) (V c main_arg6) (V c main_arg8) (V c main_arg9)
    (iblk1 V c 1 t) (iblk1 V c 0 t) (iblk1 V c 2 t) (iblk1 V c 3 t) (iblk1 V c 5 t) (iblk1 V c 4 t) (iblk1 V c 6 t) (iblk1 V c 7 t)
    p o ⟨t.val * 2000 + p.val, hr⟩
    (fun k => sums_block V c t p k ⟨t.val * 2000 + p.val, hr⟩ rfl) (degree_block V c t p ⟨t.val * 2000 + p.val, hr⟩ rfl)
    (fun k => self_block V c t p k ⟨t.val * 2000 + p.val, hr⟩ rfl)
    (wl_block V c t) (wr_block V c t) (bias_block V c t) (wp_block V c t) (bp_block V c t)).trans ?_
  exact congrArg (Cert.Sage.projected (V c main_v17) (V c main_v12) (V c main_v13) (V c main_arg5) (V c main_arg7) (V c main_arg6) (V c main_arg8) (V c main_arg9))
    (out_block_index t p o ⟨t.val * 2000 + p.val, hr⟩ rfl).symm

/-- An index of the output array is in point `t`'s block iff each coordinate is in the block's range on its axis. -/
theorem mem_out_block (t : Fin cfg1.N) (i : S50000x384.Idx) :
    i ∈ ((cfg1.win 8).blk t).view.set ↔ ∀ a : Fin 2, win1_8.index t a * S2000x384.size a ≤ (i a).val ∧ (i a).val < win1_8.index t a * S2000x384.size a + S2000x384.size a := by
  show i ∈ ((View.whole main_v18).slice (win1_8.rect t)).set ↔ _
  rw [View.set_slice_whole, Rect.mem_set_unit]
  exact Iff.rfl

/-- The blocks tile the output: node `r` is written back by point `r / 2000`. -/
theorem covered (i : S50000x384.Idx) :
    ∃ t : Fin cfg1.N, (cfg1.win 8).flush t = true ∧ i ∈ ((cfg1.win 8).blk t).view.set := by
  have hi0 : (i 0).val < 50000 := (i 0).isLt
  have hi1 : (i 1).val < 384 := (i 1).isLt
  obtain ⟨t, ht⟩ : ∃ t : Fin cfg1.N, t.val = (i 0).val / 2000 := ⟨⟨(i 0).val / 2000, by rw [show cfg1.N = 25 from N_1]; omega⟩, rfl⟩
  obtain ⟨e0, e1⟩ := number_out t
  refine ⟨t, flush1_8 t, ?_⟩
  rw [mem_out_block]
  intro a
  match a with
  | ⟨0, _⟩ => show win1_8.index t (0 : Fin 2) * 2000 ≤ (i 0).val ∧ (i 0).val < win1_8.index t (0 : Fin 2) * 2000 + 2000; omega
  | ⟨1, _⟩ => show win1_8.index t (1 : Fin 2) * 384 ≤ (i 1).val ∧ (i 1).val < win1_8.index t (1 : Fin 2) * 384 + 384; omega

/-- The second region's output array after the region, whatever the region found at its windows. -/
theorem final (c : Dev nD) :
    (dat1 (F := Ideal) V c).arrAt 8 cfg1.N
      = Cert.Sage.projected (V c main_v17) (V c main_v12) (V c main_v13) (V c main_arg5) (V c main_arg7) (V c main_arg6)
          (V c main_arg8) (V c main_arg9) :=
  (dat1 (F := Ideal) V c).arrAt_eq_of_cover 8
    (Cert.Sage.projected (V c main_v17) (V c main_v12) (V c main_v13) (V c main_arg5) (V c main_arg7) (V c main_arg6) (V c main_arg8) (V c main_arg9))
    (fun t _ => flushed_eq V c t) covered

end Cert.KernelIdeal.Layer2

end
-- ==== Proof.HostFold.lean ====
/-
  The kernel program's buffers at every boundary of its run, read back to its arguments.

  The run is: three stretches of host operations (the edge list's two rows; the source rows taken out of the node
  features; their sums per destination node and the in-degree), the first kernel region (the first layer), two more
  stretches (the source rows taken out of the first layer's output; their sums), the second kernel region (the second
  layer and the last linear map).  Each boundary's contents is a fold of the one before; read at the buffers the next
  step uses, the fold comes out as the network function of the arguments.  The only place the source ids' range is
  used is the two gathering stretches, whose range test then passes on every edge.
-/
import proofs.«422061_j76020921139986_1_alg».proof.Proof.Gen.KernelIdeal.Frame
import proofs.«422061_j76020921139986_1_alg».proof.Proof.HostStretch
import proofs.«422061_j76020921139986_1_alg».proof.Proof.HostTake256
import proofs.«422061_j76020921139986_1_alg».proof.Proof.HostTake128
import proofs.«422061_j76020921139986_1_alg».proof.Proof.HostKept
import proofs.«422061_j76020921139986_1_alg».proof.Proof.Network
import proofs.«422061_j76020921139986_1_alg».proof.Proof.Layer1
import proofs.«422061_j76020921139986_1_alg».proof.Proof.Layer2

set_option maxRecDepth 16384

noncomputable section

namespace Cert.KernelIdeal.HostFold

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

/-- The source ids of the edge list as launched. -/
abbrev src : IVec S800000 32 := HostStretch.srcIds (m ((c : Thread nD τ).loc main_arg1))
/-- The destination ids of the edge list as launched. -/
abbrev dst : IVec S800000 32 := HostStretch.dstIds (m ((c : Thread nD τ).loc main_arg1))

/-! ## After the first stretch -/

theorem w1_v1 : W1 m ρ c (Proc.devRef .tc main_v1) = src m c := HostStretch.ids_src (W0 m ρ c)
theorem w1_v3 : W1 m ρ c (Proc.devRef .tc main_v3) = dst m c := HostStretch.ids_dst (W0 m ρ c)
theorem w1_arg0 : W1 m ρ c (Proc.devRef .tc main_arg0) = (m ((c : Thread nD τ).loc main_arg0)) := HostKept.s0_main_arg0 (W0 m ρ c)
theorem w1_arg2 : W1 m ρ c (Proc.devRef .tc main_arg2) = (m ((c : Thread nD τ).loc main_arg2)) := HostKept.s0_main_arg2 (W0 m ρ c)
theorem w1_arg3 : W1 m ρ c (Proc.devRef .tc main_arg3) = (m ((c : Thread nD τ).loc main_arg3)) := HostKept.s0_main_arg3 (W0 m ρ c)
theorem w1_arg4 : W1 m ρ c (Proc.devRef .tc main_arg4) = (m ((c : Thread nD τ).loc main_arg4)) := HostKept.s0_main_arg4 (W0 m ρ c)
theorem w1_arg5 : W1 m ρ c (Proc.devRef .tc main_arg5) = (m ((c : Thread nD τ).loc main_arg5)) := HostKept.s0_main_arg5 (W0 m ρ c)
theorem w1_arg6 : W1 m ρ c (Proc.devRef .tc main_arg6) = (m ((c : Thread nD τ).loc main_arg6)) := HostKept.s0_main_arg6 (W0 m ρ c)
theorem w1_arg7 : W1 m ρ c (Proc.devRef .tc main_arg7) = (m ((c : Thread nD τ).loc main_arg7)) := HostKept.s0_main_arg7 (W0 m ρ c)
theorem w1_arg8 : W1 m ρ c (Proc.devRef .tc main_arg8) = (m ((c : Thread nD τ).loc main_arg8)) := HostKept.s0_main_arg8 (W0 m ρ c)
theorem w1_arg9 : W1 m ρ c (Proc.devRef .tc main_arg9) = (m ((c : Thread nD τ).loc main_arg9)) := HostKept.s0_main_arg9 (W0 m ρ c)

/-! ## After the first gathering stretch -/

theorem w2_v1 : W2 m ρ c (Proc.devRef .tc main_v1) = src m c := (HostKept.s01_main_v1 (W1 m ρ c)).trans (w1_v1 m ρ c)
theorem w2_v3 : W2 m ρ c (Proc.devRef .tc main_v3) = dst m c := (HostKept.s01_main_v3 (W1 m ρ c)).trans (w1_v3 m ρ c)
theorem w2_arg0 : W2 m ρ c (Proc.devRef .tc main_arg0) = (m ((c : Thread nD τ).loc main_arg0)) := (HostKept.s01_main_arg0 (W1 m ρ c)).trans (w1_arg0 m ρ c)
theorem w2_arg2 : W2 m ρ c (Proc.devRef .tc main_arg2) = (m ((c : Thread nD τ).loc main_arg2)) := (HostKept.s01_main_arg2 (W1 m ρ c)).trans (w1_arg2 m ρ c)
theorem w2_arg3 : W2 m ρ c (Proc.devRef .tc main_arg3) = (m ((c : Thread nD τ).loc main_arg3)) := (HostKept.s01_main_arg3 (W1 m ρ c)).trans (w1_arg3 m ρ c)
theorem w2_arg4 : W2 m ρ c (Proc.devRef .tc main_arg4) = (m ((c : Thread nD τ).loc main_arg4)) := (HostKept.s01_main_arg4 (W1 m ρ c)).trans (w1_arg4 m ρ c)
theorem w2_arg5 : W2 m ρ c (Proc.devRef .tc main_arg5) = (m ((c : Thread nD τ).loc main_arg5)) := (HostKept.s01_main_arg5 (W1 m ρ c)).trans (w1_arg5 m ρ c)
theorem w2_arg6 : W2 m ρ c (Proc.devRef .tc main_arg6) = (m ((c : Thread nD τ).loc main_arg6)) := (HostKept.s01_main_arg6 (W1 m ρ c)).trans (w1_arg6 m ρ c)
theorem w2_arg7 : W2 m ρ c (Proc.devRef .tc main_arg7) = (m ((c : Thread nD τ).loc main_arg7)) := (HostKept.s01_main_arg7 (W1 m ρ c)).trans (w1_arg7 m ρ c)
theorem w2_arg8 : W2 m ρ c (Proc.devRef .tc main_arg8) = (m ((c : Thread nD τ).loc main_arg8)) := (HostKept.s01_main_arg8 (W1 m ρ c)).trans (w1_arg8 m ρ c)
theorem w2_arg9 : W2 m ρ c (Proc.devRef .tc main_arg9) = (m ((c : Thread nD τ).loc main_arg9)) := (HostKept.s01_main_arg9 (W1 m ρ c)).trans (w1_arg9 m ρ c)
/-- The rows taken out of the node features, at the launched source ids. -/
theorem w2_v4 : W2 m ρ c (Proc.devRef .tc main_v4) = HostTake256.taken256 (m ((c : Thread nD τ).loc main_arg0)) (src m c) :=
  (HostTake256.first_take (W1 m ρ c)).trans (by rw [w1_arg0 m ρ c, w1_v1 m ρ c])

/-! ## At the first region's entry -/

theorem w3_v1 : W3 m ρ c (Proc.devRef .tc main_v1) = src m c := (HostKept.s02_main_v1 (W2 m ρ c)).trans (w2_v1 m ρ c)
theorem w3_v3 : W3 m ρ c (Proc.devRef .tc main_v3) = dst m c := (HostKept.s02_main_v3 (W2 m ρ c)).trans (w2_v3 m ρ c)
theorem w3_arg0 : W3 m ρ c (Proc.devRef .tc main_arg0) = (m ((c : Thread nD τ).loc main_arg0)) := (HostKept.s02_main_arg0 (W2 m ρ c)).trans (w2_arg0 m ρ c)
theorem w3_arg2 : W3 m ρ c (Proc.devRef .tc main_arg2) = (m ((c : Thread nD τ).loc main_arg2)) := (HostKept.s02_main_arg2 (W2 m ρ c)).trans (w2_arg2 m ρ c)
theorem w3_arg3 : W3 m ρ c (Proc.devRef .tc main_arg3) = (m ((c : Thread nD τ).loc main_arg3)) := (HostKept.s02_main_arg3 (W2 m ρ c)).trans (w2_arg3 m ρ c)
theorem w3_arg4 : W3 m ρ c (Proc.devRef .tc main_arg4) = (m ((c : Thread nD τ).loc main_arg4)) := (HostKept.s02_main_arg4 (W2 m ρ c)).trans (w2_arg4 m ρ c)
theorem w3_arg5 : W3 m ρ c (Proc.devRef .tc main_arg5) = (m ((c : Thread nD τ).loc main_arg5)) := (HostKept.s02_main_arg5 (W2 m ρ c)).trans (w2_arg5 m ρ c)
theorem w3_arg6 : W3 m ρ c (Proc.devRef .tc main_arg6) = (m ((c : Thread nD τ).loc main_arg6)) := (HostKept.s02_main_arg6 (W2 m ρ c)).trans (w2_arg6 m ρ c)
theorem w3_arg7 : W3 m ρ c (Proc.devRef .tc main_arg7) = (m ((c : Thread nD τ).loc main_arg7)) := (HostKept.s02_main_arg7 (W2 m ρ c)).trans (w2_arg7 m ρ c)
theorem w3_arg8 : W3 m ρ c (Proc.devRef .tc main_arg8) = (m ((c : Thread nD τ).loc main_arg8)) := (HostKept.s02_main_arg8 (W2 m ρ c)).trans (w2_arg8 m ρ c)
theorem w3_arg9 : W3 m ρ c (Proc.devRef .tc main_arg9) = (m ((c : Thread nD τ).loc main_arg9)) := (HostKept.s02_main_arg9 (W2 m ρ c)).trans (w2_arg9 m ρ c)
/-- The first neighbour sums. -/
theorem w3_v7 : W3 m ρ c (Proc.devRef .tc main_v7) = HostStretch.added256 (dst m c) (HostTake256.taken256 (m ((c : Thread nD τ).loc main_arg0)) (src m c)) :=
  (HostStretch.first_sums (W2 m ρ c)).trans (by rw [w2_v3 m ρ c, w2_v4 m ρ c])
/-- The in-degree column. -/
theorem w3_v12 : W3 m ρ c (Proc.devRef .tc main_v12) = HostStretch.degreeCol (dst m c) :=
  (HostStretch.degree (W2 m ρ c)).trans (by rw [w2_v3 m ρ c])

/-! ## At the first region's exit -/

theorem w4_v1 : W4 m ρ c (Proc.devRef .tc main_v1) = src m c := (W4_of_ne m ρ c main_v1 (by decide)).trans (w3_v1 m ρ c)
theorem w4_v3 : W4 m ρ c (Proc.devRef .tc main_v3) = dst m c := (W4_of_ne m ρ c main_v3 (by decide)).trans (w3_v3 m ρ c)
theorem w4_arg5 : W4 m ρ c (Proc.devRef .tc main_arg5) = (m ((c : Thread nD τ).loc main_arg5)) := (W4_of_ne m ρ c main_arg5 (by decide)).trans (w3_arg5 m ρ c)
theorem w4_arg6 : W4 m ρ c (Proc.devRef .tc main_arg6) = (m ((c : Thread nD τ).loc main_arg6)) := (W4_of_ne m ρ c main_arg6 (by decide)).trans (w3_arg6 m ρ c)
theorem w4_arg7 : W4 m ρ c (Proc.devRef .tc main_arg7) = (m ((c : Thread nD τ).loc main_arg7)) := (W4_of_ne m ρ c main_arg7 (by decide)).trans (w3_arg7 m ρ c)
theorem w4_arg8 : W4 m ρ c (Proc.devRef .tc main_arg8) = (m ((c : Thread nD τ).loc main_arg8)) := (W4_of_ne m ρ c main_arg8 (by decide)).trans (w3_arg8 m ρ c)
theorem w4_arg9 : W4 m ρ c (Proc.devRef .tc main_arg9) = (m ((c : Thread nD τ).loc main_arg9)) := (W4_of_ne m ρ c main_arg9 (by decide)).trans (w3_arg9 m ρ c)
/-- The degree column is an input of the first region: it leaves it as it found it. -/
theorem w4_v12 : W4 m ρ c (Proc.devRef .tc main_v12) = HostStretch.degreeCol (dst m c) :=
  ((W4_arr m ρ c 1).trans (((dat0 (V3 m ρ) c).arrAt_in 1 rfl _).trans (A_eq0 (V3 m ρ) c 1))).trans (w3_v12 m ρ c)
/-- The first region's output is the first layer of the network, when every source id is a node. -/
theorem w4_v13 (hs : ∀ i, ((src m c) i).toNat < 50000) :
    W4 m ρ c (Proc.devRef .tc main_v13) = Network.firstLayer (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 6).trans ((Layer1.final (V3 m ρ) c).trans ?_)
  show Cert.Sage.hidden1 (W3 m ρ c (Proc.devRef .tc main_v7)) (W3 m ρ c (Proc.devRef .tc main_v12)) (W3 m ρ c (Proc.devRef .tc main_arg0))
    (W3 m ρ c (Proc.devRef .tc main_arg2)) (W3 m ρ c (Proc.devRef .tc main_arg4)) (W3 m ρ c (Proc.devRef .tc main_arg3)) = _
  rw [w3_v7 m ρ c, w3_v12 m ρ c, w3_arg0 m ρ c, w3_arg2 m ρ c, w3_arg4 m ρ c, w3_arg3 m ρ c]
  unfold HostTake256.taken256
  rw [TakeFill.take256 _ _ hs]
  rfl

/-! ## After the second gathering stretch -/

theorem w5_v3 : W5 m ρ c (Proc.devRef .tc main_v3) = dst m c := (HostKept.s1_main_v3 (W4 m ρ c)).trans (w4_v3 m ρ c)
theorem w5_v12 : W5 m ρ c (Proc.devRef .tc main_v12) = HostStretch.degreeCol (dst m c) := (HostKept.s1_main_v12 (W4 m ρ c)).trans (w4_v12 m ρ c)
theorem w5_v13 (hs : ∀ i, ((src m c) i).toNat < 50000) :
    W5 m ρ c (Proc.devRef .tc main_v13) = Network.firstLayer (m ((c : Thread nD τ).loc main_arg0)) (m ((c : Thread nD τ).loc main_arg1)) (m ((c : Thread nD τ).loc main_arg2)) (m ((c : Thread nD τ).loc main_arg3)) (m ((c : Thread nD τ).loc main_arg4)) :=
  (HostKept.s1_main_v13 (W4 m ρ c)).trans (w4_v13 m ρ c hs)
theorem w5_arg5 : W5 m ρ c (Proc.devRef .tc main_arg5) = (m ((c : Thread nD τ).loc main_arg5)) := (HostKept.s1_main_arg5 (W4 m ρ c)).trans (w4_arg5 m ρ c)
theorem w5_arg6 : W5 m ρ c (Proc.devRef .tc main_arg6) = (m ((c : Thread nD τ).loc main_arg6)) := (HostKept.s1_main_arg6 (W4 m ρ c)).trans (w4_arg6 m ρ c)
theorem w5_arg7 : W5 m ρ c (Proc.devRef .tc main_arg7) = (m ((c : Thread nD τ).loc main_arg7)) := (HostKept.s1_main_arg7 (W4 m ρ c)).trans (w4_arg7 m ρ c)
theorem w5_arg8 : W5 m ρ c (Proc.devRef .tc main_arg8) = (m ((c : Thread nD τ).loc main_arg8)) := (HostKept.s1_main_arg8 (W4 m ρ c)).trans (w4_arg8 m ρ c)
theorem w5_arg9 : W5 m ρ c (Proc.devRef .tc main_arg9) = (m ((c : Thread nD τ).loc main_arg9)) := (HostKept.s1_main_arg9 (W4 m ρ c)).trans (w4_arg9 m ρ c)
/-- The rows taken out of the first layer's output: the plain gather, when every source id is a node. -/
theorem w5_v14 (hs : ∀ i, ((src m c) i).toNat < 50000) :
    W5 m ρ c (Proc.devRef .tc main_v14)
      = Host.gather gather_S50000x128_S800000x1_S800000x128_1_0_n_n_0_1_1128
          (Network.firstLayer (m ((c : Thread nD τ).loc main_arg0)) (m ((c : Thread nD τ).loc main_arg1)) (m ((c : Thread nD τ).loc main_arg2)) (m ((c : Thread nD τ).loc main_arg3)) (m ((c : Thread nD τ).loc main_arg4))) (TakeFill.wrapCol (src m c)) := by
  refine (HostTake128.second_take (W4 m ρ c)).trans ?_
  rw [w4_v13 m ρ c hs, w4_v1 m ρ c]
  unfold HostTake128.taken128
  exact TakeFill.take128 _ _ hs

/-! ## At the second region's entry -/

theorem w6_v12 : W6 m ρ c (Proc.devRef .tc main_v12) = HostStretch.degreeCol (dst m c) := (HostKept.s11_main_v12 (W5 m ρ c)).trans (w5_v12 m ρ c)
theorem w6_v13 (hs : ∀ i, ((src m c) i).toNat < 50000) :
    W6 m ρ c (Proc.devRef .tc main_v13) = Network.firstLayer (m ((c : Thread nD τ).loc main_arg0)) (m ((c : Thread nD τ).loc main_arg1)) (m ((c : Thread nD τ).loc main_arg2)) (m ((c : Thread nD τ).loc main_arg3)) (m ((c : Thread nD τ).loc main_arg4)) :=
  (HostKept.s11_main_v13 (W5 m ρ c)).trans (w5_v13 m ρ c hs)
theorem w6_arg5 : W6 m ρ c (Proc.devRef .tc main_arg5) = (m ((c : Thread nD τ).loc main_arg5)) := (HostKept.s11_main_arg5 (W5 m ρ c)).trans (w5_arg5 m ρ c)
theorem w6_arg6 : W6 m ρ c (Proc.devRef .tc main_arg6) = (m ((c : Thread nD τ).loc main_arg6)) := (HostKept.s11_main_arg6 (W5 m ρ c)).trans (w5_arg6 m ρ c)
theorem w6_arg7 : W6 m ρ c (Proc.devRef .tc main_arg7) = (m ((c : Thread nD τ).loc main_arg7)) := (HostKept.s11_main_arg7 (W5 m ρ c)).trans (w5_arg7 m ρ c)
theorem w6_arg8 : W6 m ρ c (Proc.devRef .tc main_arg8) = (m ((c : Thread nD τ).loc main_arg8)) := (HostKept.s11_main_arg8 (W5 m ρ c)).trans (w5_arg8 m ρ c)
theorem w6_arg9 : W6 m ρ c (Proc.devRef .tc main_arg9) = (m ((c : Thread nD τ).loc main_arg9)) := (HostKept.s11_main_arg9 (W5 m ρ c)).trans (w5_arg9 m ρ c)
/-- The second neighbour sums. -/
theorem w6_v17 (hs : ∀ i, ((src m c) i).toNat < 50000) :
    W6 m ρ c (Proc.devRef .tc main_v17)
      = HostStretch.added128 (dst m c) (Host.gather gather_S50000x128_S800000x1_S800000x128_1_0_n_n_0_1_1128
          (Network.firstLayer (m ((c : Thread nD τ).loc main_arg0)) (m ((c : Thread nD τ).loc main_arg1)) (m ((c : Thread nD τ).loc main_arg2)) (m ((c : Thread nD τ).loc main_arg3)) (m ((c : Thread nD τ).loc main_arg4))) (TakeFill.wrapCol (src m c))) :=
  (HostStretch.second_sums (W5 m ρ c)).trans (by rw [w5_v3 m ρ c, w5_v14 m ρ c hs])

/-! ## The result -/

/-- The kernel program's result buffer at the end of the run is the network's output function of the launched
    arguments, when every source id is a node. -/
theorem result (hs : ∀ i, ((src m c) i).toNat < 50000) :
    W7 m ρ c (Proc.devRef .tc main_v18)
      = Network.output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W7_arr m ρ c 8).trans ((Layer2.final (V6 m ρ) c).trans ?_)
  show Cert.Sage.projected (W6 m ρ c (Proc.devRef .tc main_v17)) (W6 m ρ c (Proc.devRef .tc main_v12)) (W6 m ρ c (Proc.devRef .tc main_v13))
    (W6 m ρ c (Proc.devRef .tc main_arg5)) (W6 m ρ c (Proc.devRef .tc main_arg7)) (W6 m ρ c (Proc.devRef .tc main_arg6))
    (W6 m ρ c (Proc.devRef .tc main_arg8)) (W6 m ρ c (Proc.devRef .tc main_arg9)) = _
  rw [w6_v17 m ρ c hs, w6_v12 m ρ c, w6_v13 m ρ c hs, w6_arg5 m ρ c, w6_arg7 m ρ c, w6_arg6 m ρ c, w6_arg8 m ρ c, w6_arg9 m ρ c]
  rfl

end Cert.KernelIdeal.HostFold

end
-- ==== Proof.Reference.lean ====
/-
  The reference's result, read through its generated run one operation at a time, as the network's output function of
  its arguments: the two neighbour sums and the degree stay the reference's own host terms; everything dense is read
  index by index.
-/
import proofs.«422061_j76020921139986_1_alg».proof.Proof.Gen.ReferenceIdeal.Run
import proofs.«422061_j76020921139986_1_alg».proof.Proof.Gen.ReferenceIdeal.Read
import proofs.«422061_j76020921139986_1_alg».proof.Proof.Spec
import proofs.«422061_j76020921139986_1_alg».proof.Proof.LibColumnForms
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.Read

/-- The reference computes the in-degree a second time for the second layer: the same host term. -/
theorem degree_again (x1 : (⟨S2x800000, .i32⟩ : BufTy).Contents (Elt Ideal)) :
    val_main_v45 (F := Ideal) x1 = val_main_v17 (F := Ideal) x1 := by
  unfold val_main_v45 val_main_v17 val_main_v43 val_main_v15 val_main_v44 val_main_v16 val_main_v42 val_main_v14
    val_main_cst_8 val_main_cst_2 val_main_cst_7 val_main_cst_1
  rfl

/-- The clamped degree, broadcast along a row of 256 lanes, read at a node. -/
private theorem deg256_at (x1 : (⟨S2x800000, .i32⟩ : BufTy).Contents (Elt Ideal)) (p : Fin 50000) (k : Fin 256) :
    val_main_v21 (F := Ideal) x1 (ix2 p k) = max (val_main_v17 (F := Ideal) x1 (ix1 p)) Cert.Sage.one := by
  rw [val_main_v21_apply, val_main_v20_apply, val_main_v19_apply, val_main_v18_apply, val_main_cst_3_apply]
  have e : idx_main_v20 (idx_main_v21 (ix2 p k)) = ix1 p := funext fun a => Fin.ext (by match a with | ⟨0, _⟩ => rfl)
  rw [e]
  rfl

/-- The neighbours' mean at a node and an input feature: the neighbour sum divided by the clamped degree. -/
private theorem mean_at (x0 : (⟨S50000x256, .f32⟩ : BufTy).Contents (Elt Ideal)) (x1 : (⟨S2x800000, .i32⟩ : BufTy).Contents (Elt Ideal))
    (p : Fin 50000) (k : Fin 256) :
    val_main_v22 (F := Ideal) x0 x1 (ix2 p k)
      = Ideal.div (val_main_v13 (F := Ideal) x0 x1 (ix2 p k)) (max (val_main_v17 (F := Ideal) x1 (ix1 p)) Cert.Sage.one) := by
  rw [val_main_v22_apply]
  exact congrArg (Ideal.div (val_main_v13 (F := Ideal) x0 x1 (ix2 p k))) (deg256_at x1 p k)

/-- The transposed neighbour weights at (input feature, output feature): the weight at (output, input). -/
private theorem wl_at (x2 : (⟨S128x256, .f32⟩ : BufTy).Contents (Elt Ideal)) (k : Fin 256) (o : Fin 128) :
    val_main_v23 (F := Ideal) x2 (ix2 k o) = x2 (ix2 o k) := by
  rw [val_main_v23_apply]
  have e : idx_main_v23 (ix2 k o) = ix2 o k :=
    funext fun a => Fin.ext (by match a with | ⟨0, _⟩ => rfl | ⟨1, _⟩ => rfl)
  rw [e]

/-- The transposed self weights at (input feature, output feature): the weight at (output, input). -/
private theorem wr_at (x4 : (⟨S128x256, .f32⟩ : BufTy).Contents (Elt Ideal)) (k : Fin 256) (o : Fin 128) :
    val_main_v28 (F := Ideal) x4 (ix2 k o) = x4 (ix2 o k) := by
  rw [val_main_v28_apply]
  have e : idx_main_v28 (ix2 k o) = ix2 o k :=
    funext fun a => Fin.ext (by match a with | ⟨0, _⟩ => rfl | ⟨1, _⟩ => rfl)
  rw [e]

/-- The bias, broadcast over the nodes, read at a node and an output feature. -/
private theorem bias_at (x3 : (⟨S128, .f32⟩ : BufTy).Contents (Elt Ideal)) (p : Fin 50000) (o : Fin 128) :
    val_main_v26 (F := Ideal) x3 (ix2 p o) = x3 (ix1 o) := by
  rw [val_main_v26_apply, val_main_v25_apply]
  have e : idx_main_v25 (idx_main_v26 (ix2 p o)) = ix1 o :=
    funext fun a => Fin.ext (by match a with | ⟨0, _⟩ => rfl)
  rw [e]

/-- The rectifier's threshold, broadcast over the whole layer, is the word of zero at every entry. -/
private theorem relu_zero_at (p : Fin 50000) (o : Fin 128) :
    val_main_call0_v0 (F := Ideal) (ix2 p o) = Cert.Sage.zero := by
  rw [val_main_call0_v0_apply]
  exact val_main_call0_cst_apply _

/-- One term of the neighbours' contraction at (p, o): the mean at (p, k) times the weight at (o, k). -/
private theorem left_term (x0 : (⟨S50000x256, .f32⟩ : BufTy).Contents (Elt Ideal)) (x1 : (⟨S2x800000, .i32⟩ : BufTy).Contents (Elt Ideal))
    (x2 : (⟨S128x256, .f32⟩ : BufTy).Contents (Elt Ideal)) (p : Fin 50000) (o : Fin 128) (k : Fin 256) :
    val_main_v22 (F := Ideal) x0 x1 (lidx_main_v24 (ix2 p o) k) * val_main_v23 (F := Ideal) x2 (ridx_main_v24 (ix2 p o) k)
      = Ideal.div (val_main_v13 (F := Ideal) x0 x1 (ix2 p k)) (max (val_main_v17 (F := Ideal) x1 (ix1 p)) Cert.Sage.one)
          * x2 (ix2 o k) := by
  have el : lidx_main_v24 (ix2 p o) k = ix2 p k :=
    funext fun a => Fin.ext (by match a with | ⟨0, _⟩ => rfl | ⟨1, _⟩ => rfl)
  have er : ridx_main_v24 (ix2 p o) k = ix2 k o :=
    funext fun a => Fin.ext (by match a with | ⟨0, _⟩ => rfl | ⟨1, _⟩ => rfl)
  rw [el, er, mean_at, wl_at]

/-- One term of the node's own contraction at (p, o): the feature at (p, k) times the weight at (o, k). -/
private theorem right_term (x0 : (⟨S50000x256, .f32⟩ : BufTy).Contents (Elt Ideal)) (x4 : (⟨S128x256, .f32⟩ : BufTy).Contents (Elt Ideal))
    (p : Fin 50000) (o : Fin 128) (k : Fin 256) :
    x0 (lidx_main_v29 (ix2 p o) k) * val_main_v28 (F := Ideal) x4 (ridx_main_v29 (ix2 p o) k)
      = x0 (ix2 p k) * x4 (ix2 o k) := by
  have el : lidx_main_v29 (ix2 p o) k = ix2 p k :=
    funext fun a => Fin.ext (by match a with | ⟨0, _⟩ => rfl | ⟨1, _⟩ => rfl)
  have er : ridx_main_v29 (ix2 p o) k = ix2 k o :=
    funext fun a => Fin.ext (by match a with | ⟨0, _⟩ => rfl | ⟨1, _⟩ => rfl)
  rw [el, er, wr_at]

/-- The degree vector cast to a column reads, at row p, the degree of node p. -/
private theorem deg_col_at (x1 : (⟨S2x800000, .i32⟩ : BufTy).Contents (Elt Ideal)) (h : S50000.ShapeCasts S50000x1) (p : Fin 50000) :
    shapeCast S50000x1 (val_main_v17 (F := Ideal) x1) h (ix2 p (0 : Fin 1)) = val_main_v17 (F := Ideal) x1 (ix1 p) :=
  Cert.LibColumnForms.shapeCast_a_a1_apply (val_main_v17 (F := Ideal) x1) h p 0

/-- The reference's first hidden layer is `hidden1` of its own neighbour sum and degree (the degree as a column). -/
theorem hidden_eq (x0 : (⟨S50000x256, .f32⟩ : BufTy).Contents (Elt Ideal)) (x1 : (⟨S2x800000, .i32⟩ : BufTy).Contents (Elt Ideal))
    (x2 : (⟨S128x256, .f32⟩ : BufTy).Contents (Elt Ideal)) (x3 : (⟨S128, .f32⟩ : BufTy).Contents (Elt Ideal))
    (x4 : (⟨S128x256, .f32⟩ : BufTy).Contents (Elt Ideal)) (h : S50000.ShapeCasts S50000x1) :
    val_main_v31 (F := Ideal) x0 x1 x2 x3 x4
      = Cert.Sage.hidden1 (val_main_v13 (F := Ideal) x0 x1) (shapeCast S50000x1 (val_main_v17 (F := Ideal) x1) h) x0 x2 x4 x3 := by
  funext j
  obtain ⟨p, o, rfl⟩ : ∃ (p : Fin 50000) (o : Fin 128), j = ix2 p o := ⟨j 0, j 1, eq_ix2 j⟩
  -- the entry at (p, o), one operation at a time: rectifier, the two additions, the two contractions, bias, threshold
  rw [val_main_v31_apply, val_main_v30_apply, val_main_v27_apply, val_main_v24_apply, val_main_v29_apply,
    bias_at, relu_zero_at]
  -- each contraction term by term, at the coordinates
  have s1 : (∑ k : Fin 256, val_main_v22 (F := Ideal) x0 x1 (lidx_main_v24 (ix2 p o) k)
        * val_main_v23 (F := Ideal) x2 (ridx_main_v24 (ix2 p o) k))
      = ∑ k : Fin 256, Ideal.div (val_main_v13 (F := Ideal) x0 x1 (ix2 p k))
          (max (val_main_v17 (F := Ideal) x1 (ix1 p)) Cert.Sage.one) * x2 (ix2 o k) :=
    Finset.sum_congr rfl fun k _ => left_term x0 x1 x2 p o k
  have s2 : (∑ k : Fin 256, x0 (lidx_main_v29 (ix2 p o) k) * val_main_v28 (F := Ideal) x4 (ridx_main_v29 (ix2 p o) k))
      = ∑ k : Fin 256, x0 (ix2 p k) * x4 (ix2 o k) :=
    Finset.sum_congr rfl fun k _ => right_term x0 x4 p o k
  rw [s1, s2, Ideal.maximumf_def, Ideal.addf_def, Ideal.addf_def]
  -- the right side at (p, o): the rectified layer entry, its degree read off the column
  show _ = max (Cert.Sage.conv (fun k : Fin 256 => val_main_v13 (F := Ideal) x0 x1 (ix2 p k))
      (shapeCast S50000x1 (val_main_v17 (F := Ideal) x1) h (ix2 p (0 : Fin 1))) (fun k : Fin 256 => x0 (ix2 p k))
      (fun k : Fin 256 => x2 (ix2 o k)) (fun k : Fin 256 => x4 (ix2 o k)) (x3 (ix1 o))) Cert.Sage.zero
  -- the reference adds the bias before the node's own term: regroup
  rw [deg_col_at, ← Cert.Sage.conv_bias_first]

end Cert.ReferenceIdeal.RefValue

end
-- ==== Proof.ReferenceOut.lean ====
/-
  The reference's result, read through its generated run one operation at a time from its first hidden layer on: the
  second layer's mean, its two contractions and bias, the rectifier, and the last linear map, index by index.
-/
import proofs.«422061_j76020921139986_1_alg».proof.Proof.Reference

noncomputable section

open scoped BigOperators
open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.Read

/-- The clamped degree of the second layer, broadcast along a row of 128 lanes, read at a node: the degree is the
    same host term as the first layer's. -/
private theorem deg128_at (x1 : (⟨S2x800000, .i32⟩ : BufTy).Contents (Elt Ideal)) (p : Fin 50000) (k : Fin 128) :
    val_main_v49 (F := Ideal) x1 (ix2 p k) = max (val_main_v17 (F := Ideal) x1 (ix1 p)) Cert.Sage.one := by
  rw [val_main_v49_apply, val_main_v48_apply, val_main_v47_apply, val_main_v46_apply, val_main_cst_9_apply, degree_again]
  have e : idx_main_v48 (idx_main_v49 (ix2 p k)) = ix1 p := funext fun a => Fin.ext (by match a with | ⟨0, _⟩ => rfl)
  rw [e]
  rfl

/-- The degree vector cast to a column reads, at a node's row, the node's degree. -/
private theorem degcol_at (x1 : (⟨S2x800000, .i32⟩ : BufTy).Contents (Elt Ideal)) (h : S50000.ShapeCasts S50000x1) (p : Fin 50000) :
    shapeCast S50000x1 (val_main_v17 (F := Ideal) x1) h (ix2 p (0 : Fin 1)) = val_main_v17 (F := Ideal) x1 (ix1 p) :=
  Cert.LibColumnForms.shapeCast_a_a1_apply _ h p 0

/-- The second layer's mean at a node and feature: the neighbour sum over the clamped degree. -/
private theorem mean2_at (x0 : (⟨S50000x256, .f32⟩ : BufTy).Contents (Elt Ideal)) (x1 : (⟨S2x800000, .i32⟩ : BufTy).Contents (Elt Ideal))
    (x2 : (⟨S128x256, .f32⟩ : BufTy).Contents (Elt Ideal)) (x3 : (⟨S128, .f32⟩ : BufTy).Contents (Elt Ideal))
    (x4 : (⟨S128x256, .f32⟩ : BufTy).Contents (Elt Ideal)) (p : Fin 50000) (k : Fin 128) :
    val_main_v50 (F := Ideal) x0 x1 x2 x3 x4 (ix2 p k)
      = Ideal.div (val_main_v41 (F := Ideal) x0 x1 x2 x3 x4 (ix2 p k)) (max (val_main_v17 (F := Ideal) x1 (ix1 p)) Cert.Sage.one) := by
  rw [val_main_v50_apply, deg128_at]
  rfl

/-- The transposed neighbour weights of the second layer at `(k, c)` are the weights at `(c, k)`. -/
private theorem wl2_at (x5 : (⟨S256x128, .f32⟩ : BufTy).Contents (Elt Ideal)) (k : Fin 128) (c : Fin 256) :
    val_main_v51 (F := Ideal) x5 (ix2 k c) = x5 (ix2 c k) := by
  rw [val_main_v51_apply]
  have e : idx_main_v51 (ix2 k c) = ix2 c k := funext fun a => Fin.ext (by match a with | ⟨0, _⟩ => rfl | ⟨1, _⟩ => rfl)
  rw [e]

/-- The transposed own-term weights of the second layer at `(k, c)` are the weights at `(c, k)`. -/
private theorem wr2_at (x7 : (⟨S256x128, .f32⟩ : BufTy).Contents (Elt Ideal)) (k : Fin 128) (c : Fin 256) :
    val_main_v56 (F := Ideal) x7 (ix2 k c) = x7 (ix2 c k) := by
  rw [val_main_v56_apply]
  have e : idx_main_v56 (ix2 k c) = ix2 c k := funext fun a => Fin.ext (by match a with | ⟨0, _⟩ => rfl | ⟨1, _⟩ => rfl)
  rw [e]

/-- The second layer's bias, broadcast over the nodes, at `(p, c)` is the bias at `c`. -/
private theorem bias256_at (x6 : (⟨S256, .f32⟩ : BufTy).Contents (Elt Ideal)) (p : Fin 50000) (c : Fin 256) :
    val_main_v54 (F := Ideal) x6 (ix2 p c) = x6 (ix1 c) := by
  rw [val_main_v54_apply, val_main_v53_apply]
  have e : idx_main_v53 (idx_main_v54 (ix2 p c)) = ix1 c := funext fun a => Fin.ext (by match a with | ⟨0, _⟩ => rfl)
  rw [e]

/-- The transposed last weights at `(c, o)` are the weights at `(o, c)`. -/
private theorem wp_at (x8 : (⟨S384x256, .f32⟩ : BufTy).Contents (Elt Ideal)) (c : Fin 256) (o : Fin 384) :
    val_main_v60 (F := Ideal) x8 (ix2 c o) = x8 (ix2 o c) := by
  rw [val_main_v60_apply]
  have e : idx_main_v60 (ix2 c o) = ix2 o c := funext fun a => Fin.ext (by match a with | ⟨0, _⟩ => rfl | ⟨1, _⟩ => rfl)
  rw [e]

/-- The last bias, broadcast over the nodes, at `(p, o)` is the bias at `o`. -/
private theorem bias384_at (x9 : (⟨S384, .f32⟩ : BufTy).Contents (Elt Ideal)) (p : Fin 50000) (o : Fin 384) :
    val_main_v63 (F := Ideal) x9 (ix2 p o) = x9 (ix1 o) := by
  rw [val_main_v63_apply, val_main_v62_apply]
  have e : idx_main_v62 (idx_main_v63 (ix2 p o)) = ix1 o := funext fun a => Fin.ext (by match a with | ⟨0, _⟩ => rfl)
  rw [e]

/-- The neighbour contraction of the second layer at `(p, c)`: the mean row of node `p` against row `c` of the weights. -/
private theorem nbr2_at (x0 : (⟨S50000x256, .f32⟩ : BufTy).Contents (Elt Ideal)) (x1 : (⟨S2x800000, .i32⟩ : BufTy).Contents (Elt Ideal))
    (x2 : (⟨S128x256, .f32⟩ : BufTy).Contents (Elt Ideal)) (x3 : (⟨S128, .f32⟩ : BufTy).Contents (Elt Ideal))
    (x4 : (⟨S128x256, .f32⟩ : BufTy).Contents (Elt Ideal)) (x5 : (⟨S256x128, .f32⟩ : BufTy).Contents (Elt Ideal))
    (h : S50000.ShapeCasts S50000x1) (p : Fin 50000) (c : Fin 256) :
    val_main_v52 (F := Ideal) x0 x1 x2 x3 x4 x5 (ix2 p c)
      = ∑ k : Fin 128, Ideal.div (val_main_v41 (F := Ideal) x0 x1 x2 x3 x4 (ix2 p k))
          (max (shapeCast S50000x1 (val_main_v17 (F := Ideal) x1) h (ix2 p (0 : Fin 1))) Cert.Sage.one) * x5 (ix2 c k) := by
  rw [val_main_v52_apply]
  refine Finset.sum_congr rfl fun k _ => ?_
  have el : lidx_main_v52 (ix2 p c) k = ix2 p k := funext fun a => Fin.ext (by match a with | ⟨0, _⟩ => rfl | ⟨1, _⟩ => rfl)
  have er : ridx_main_v52 (ix2 p c) k = ix2 k c := funext fun a => Fin.ext (by match a with | ⟨0, _⟩ => rfl | ⟨1, _⟩ => rfl)
  rw [el, er, mean2_at, wl2_at, degcol_at]

/-- The own-term contraction of the second layer at `(p, c)`: the first hidden row of node `p` against row `c` of the weights. -/
private theorem own2_at (x0 : (⟨S50000x256, .f32⟩ : BufTy).Contents (Elt Ideal)) (x1 : (⟨S2x800000, .i32⟩ : BufTy).Contents (Elt Ideal))
    (x2 : (⟨S128x256, .f32⟩ : BufTy).Contents (Elt Ideal)) (x3 : (⟨S128, .f32⟩ : BufTy).Contents (Elt Ideal))
    (x4 : (⟨S128x256, .f32⟩ : BufTy).Contents (Elt Ideal)) (x7 : (⟨S256x128, .f32⟩ : BufTy).Contents (Elt Ideal)) (p : Fin 50000) (c : Fin 256) :
    val_main_v57 (F := Ideal) x0 x1 x2 x3 x4 x7 (ix2 p c)
      = ∑ k : Fin 128, val_main_v31 (F := Ideal) x0 x1 x2 x3 x4 (ix2 p k) * x7 (ix2 c k) := by
  rw [val_main_v57_apply]
  refine Finset.sum_congr rfl fun k _ => ?_
  have el : lidx_main_v57 (ix2 p c) k = ix2 p k := funext fun a => Fin.ext (by match a with | ⟨0, _⟩ => rfl | ⟨1, _⟩ => rfl)
  have er : ridx_main_v57 (ix2 p c) k = ix2 k c := funext fun a => Fin.ext (by match a with | ⟨0, _⟩ => rfl | ⟨1, _⟩ => rfl)
  rw [el, er, wr2_at]

/-- The rectified second layer at `(p, c)` is `hidden2At`: the reference adds the bias before the node's own term, which
    is the same sum regrouped. -/
private theorem hidden2_at (x0 : (⟨S50000x256, .f32⟩ : BufTy).Contents (Elt Ideal)) (x1 : (⟨S2x800000, .i32⟩ : BufTy).Contents (Elt Ideal))
    (x2 : (⟨S128x256, .f32⟩ : BufTy).Contents (Elt Ideal)) (x3 : (⟨S128, .f32⟩ : BufTy).Contents (Elt Ideal))
    (x4 : (⟨S128x256, .f32⟩ : BufTy).Contents (Elt Ideal)) (x5 : (⟨S256x128, .f32⟩ : BufTy).Contents (Elt Ideal))
    (x6 : (⟨S256, .f32⟩ : BufTy).Contents (Elt Ideal)) (x7 : (⟨S256x128, .f32⟩ : BufTy).Contents (Elt Ideal))
    (h : S50000.ShapeCasts S50000x1) (p : Fin 50000) (c : Fin 256) :
    val_main_v59 (F := Ideal) x0 x1 x2 x3 x4 x5 x6 x7 (ix2 p c)
      = Cert.Sage.hidden2At (val_main_v41 (F := Ideal) x0 x1 x2 x3 x4) (shapeCast S50000x1 (val_main_v17 (F := Ideal) x1) h)
          (val_main_v31 (F := Ideal) x0 x1 x2 x3 x4) x5 x7 x6 p c := by
  rw [val_main_v59_apply, val_main_v58_apply, val_main_v55_apply, val_main_call1_v0_apply, val_main_call1_cst_apply,
    nbr2_at x0 x1 x2 x3 x4 x5 h, own2_at, bias256_at]
  unfold Cert.Sage.hidden2At
  rw [← Cert.Sage.conv_bias_first]
  rfl

/-- The reference's result is `projected` of its second neighbour sum, the degree column and its first hidden layer. -/
theorem out_eq (x0 : (⟨S50000x256, .f32⟩ : BufTy).Contents (Elt Ideal)) (x1 : (⟨S2x800000, .i32⟩ : BufTy).Contents (Elt Ideal))
    (x2 : (⟨S128x256, .f32⟩ : BufTy).Contents (Elt Ideal)) (x3 : (⟨S128, .f32⟩ : BufTy).Contents (Elt Ideal))
    (x4 : (⟨S128x256, .f32⟩ : BufTy).Contents (Elt Ideal)) (x5 : (⟨S256x128, .f32⟩ : BufTy).Contents (Elt Ideal))
    (x6 : (⟨S256, .f32⟩ : BufTy).Contents (Elt Ideal)) (x7 : (⟨S256x128, .f32⟩ : BufTy).Contents (Elt Ideal))
    (x8 : (⟨S384x256, .f32⟩ : BufTy).Contents (Elt Ideal)) (x9 : (⟨S384, .f32⟩ : BufTy).Contents (Elt Ideal))
    (h : S50000.ShapeCasts S50000x1) :
    val_main_v64 (F := Ideal) x0 x1 x2 x3 x4 x5 x6 x7 x8 x9
      = Cert.Sage.projected (val_main_v41 (F := Ideal) x0 x1 x2 x3 x4) (shapeCast S50000x1 (val_main_v17 (F := Ideal) x1) h)
          (val_main_v31 (F := Ideal) x0 x1 x2 x3 x4) x5 x7 x6 x8 x9 := by
  funext j
  obtain ⟨p, o, rfl⟩ : ∃ (p : Fin 50000) (o : Fin 384), j = ix2 p o := ⟨j 0, j 1, eq_ix2 j⟩
  rw [val_main_v64_apply, val_main_v61_apply, bias384_at]
  show _ = Cert.Sage.projectedAt _ _ _ _ _ _ _ _ p o
  unfold Cert.Sage.projectedAt
  refine congrArg₂ (fun a b : EReal => a + b) (Finset.sum_congr rfl fun c _ => ?_) rfl
  have el : lidx_main_v61 (ix2 p o) c = ix2 p c := funext fun a => Fin.ext (by match a with | ⟨0, _⟩ => rfl | ⟨1, _⟩ => rfl)
  have er : ridx_main_v61 (ix2 p o) c = ix2 c o := funext fun a => Fin.ext (by match a with | ⟨0, _⟩ => rfl | ⟨1, _⟩ => rfl)
  rw [el, er, hidden2_at x0 x1 x2 x3 x4 x5 x6 x7 h, wp_at]

end Cert.ReferenceIdeal.RefValue

end
-- ==== Proof.Bridge.lean ====
/-
  The kernel program's result function and the reference's last stage are one function of the ten arguments: both are
  the two-layer network over the same neighbour sums and in-degree; the reference's three host terms (the two neighbour
  sums and the degree) are, operation for operation, the kernel program's.
-/
import proofs.«422061_j76020921139986_1_alg».proof.Proof.Network
import proofs.«422061_j76020921139986_1_alg».proof.Proof.Reference
import proofs.«422061_j76020921139986_1_alg».proof.Proof.ReferenceOut

set_option maxRecDepth 16384

noncomputable section

open Idealize.ShloMosaic Idealize.ShloMosaic.TcCoe

namespace Cert.Bridge

/-! ## The dimension records of the two programs

Each program declares its own gather and scatter records; their fields are the same literals and a proof. -/

private theorem gather256_rec : Cert.KernelIdeal.gather_S50000x256_S800000x1_S800000x256_1_0_n_n_0_1_1256
    = Cert.ReferenceIdeal.gather_S50000x256_S800000x1_S800000x256_1_0_n_n_0_1_1256 := rfl

private theorem gather128_rec : Cert.KernelIdeal.gather_S50000x128_S800000x1_S800000x128_1_0_n_n_0_1_1128
    = Cert.ReferenceIdeal.gather_S50000x128_S800000x1_S800000x128_1_0_n_n_0_1_1128 := rfl

private theorem scatter256_rec : Cert.KernelIdeal.scatter_S50000x256_S800000x1_S800000x256_1_0_0_1
    = Cert.ReferenceIdeal.scatter_S50000x256_S800000x1_S800000x256_1_0_0_1 := rfl

private theorem scatter128_rec : Cert.KernelIdeal.scatter_S50000x128_S800000x1_S800000x128_1_0_0_1
    = Cert.ReferenceIdeal.scatter_S50000x128_S800000x1_S800000x128_1_0_0_1 := rfl

private theorem scatterDeg_rec : Cert.KernelIdeal.scatter_S50000_S800000x1_S800000_n_0_0_1
    = Cert.ReferenceIdeal.scatter_S50000_S800000x1_S800000_n_0_0_1 := rfl

/-! ## The edge list's two rows and the wrapped source ids -/

/-- The source ids: both programs cut row 0 out of the edge list and lay it out as a vector. -/
private theorem src_eq (x1 : (⟨Cert.ReferenceIdeal.S2x800000, .i32⟩ : BufTy).Contents (Elt Ideal)) :
    Cert.KernelIdeal.HostStretch.srcIds x1 = Cert.ReferenceIdeal.Read.val_main_v1 (F := Ideal) x1 := by
  unfold Cert.KernelIdeal.HostStretch.srcIds Cert.ReferenceIdeal.Read.val_main_v1 Cert.ReferenceIdeal.Read.val_main_v0
  rfl

/-- The destination ids: both programs cut row 1 out of the edge list and lay it out as a vector. -/
private theorem dst_eq (x1 : (⟨Cert.ReferenceIdeal.S2x800000, .i32⟩ : BufTy).Contents (Elt Ideal)) :
    Cert.KernelIdeal.HostStretch.dstIds x1 = Cert.ReferenceIdeal.Read.val_main_v3 (F := Ideal) x1 := by
  unfold Cert.KernelIdeal.HostStretch.dstIds Cert.ReferenceIdeal.Read.val_main_v3 Cert.ReferenceIdeal.Read.val_main_v2
  rfl

/-- The column of wrapped source ids the first gather reads: a negative id has the table's length added. -/
private theorem wrap_first (x1 : (⟨Cert.ReferenceIdeal.S2x800000, .i32⟩ : BufTy).Contents (Elt Ideal)) :
    Cert.KernelIdeal.TakeFill.wrapCol (Cert.ReferenceIdeal.Read.val_main_v1 (F := Ideal) x1) = Cert.ReferenceIdeal.Read.val_main_v9 (F := Ideal) x1 := by
  unfold Cert.KernelIdeal.TakeFill.wrapCol Cert.ReferenceIdeal.Read.val_main_v9 Cert.ReferenceIdeal.Read.val_main_v8 Cert.ReferenceIdeal.Read.val_main_v5 Cert.ReferenceIdeal.Read.val_main_v7 Cert.ReferenceIdeal.Read.val_main_v4 Cert.ReferenceIdeal.Read.val_main_v6 Cert.ReferenceIdeal.Read.val_main_c Cert.ReferenceIdeal.Read.val_main_c_0
  rfl

/-- The reference wraps the source ids a second time for the second gather: the same column. -/
private theorem wrap_second (x1 : (⟨Cert.ReferenceIdeal.S2x800000, .i32⟩ : BufTy).Contents (Elt Ideal)) :
    Cert.KernelIdeal.TakeFill.wrapCol (Cert.ReferenceIdeal.Read.val_main_v1 (F := Ideal) x1) = Cert.ReferenceIdeal.Read.val_main_v37 (F := Ideal) x1 := by
  unfold Cert.KernelIdeal.TakeFill.wrapCol Cert.ReferenceIdeal.Read.val_main_v37 Cert.ReferenceIdeal.Read.val_main_v36 Cert.ReferenceIdeal.Read.val_main_v33 Cert.ReferenceIdeal.Read.val_main_v35 Cert.ReferenceIdeal.Read.val_main_v32 Cert.ReferenceIdeal.Read.val_main_v34 Cert.ReferenceIdeal.Read.val_main_c_4 Cert.ReferenceIdeal.Read.val_main_c_5
  rfl

/-! ## The three host terms -/

/-- The first neighbour sum: the gathered feature rows added into the destination rows, from zero. -/
theorem sums256_eq (x0 : (⟨Cert.ReferenceIdeal.S50000x256, .f32⟩ : BufTy).Contents (Elt Ideal)) (x1 : (⟨Cert.ReferenceIdeal.S2x800000, .i32⟩ : BufTy).Contents (Elt Ideal)) :
    Cert.KernelIdeal.HostStretch.added256 (Cert.KernelIdeal.HostStretch.dstIds x1)
        (Host.gather Cert.KernelIdeal.gather_S50000x256_S800000x1_S800000x256_1_0_n_n_0_1_1256 x0
          (Cert.KernelIdeal.TakeFill.wrapCol (Cert.KernelIdeal.HostStretch.srcIds x1)))
      = Cert.ReferenceIdeal.Read.val_main_v13 (F := Ideal) x0 x1 := by
  rw [src_eq, dst_eq, wrap_first, gather256_rec]
  unfold Cert.KernelIdeal.HostStretch.added256 Cert.ReferenceIdeal.Read.val_main_v13 Cert.ReferenceIdeal.Read.val_main_v10 Cert.ReferenceIdeal.Read.val_main_v11 Cert.ReferenceIdeal.Read.val_main_v12 Cert.ReferenceIdeal.Read.val_main_cst
  rw [scatter256_rec]

/-- The in-degree as a column: a one per edge added at the destination node, from zero, then laid out `[n, 1]`. -/
theorem degree_eq (x1 : (⟨Cert.ReferenceIdeal.S2x800000, .i32⟩ : BufTy).Contents (Elt Ideal)) (h : Cert.ReferenceIdeal.S50000.ShapeCasts Cert.ReferenceIdeal.S50000x1) :
    Cert.KernelIdeal.HostStretch.degreeCol (Cert.KernelIdeal.HostStretch.dstIds x1)
      = shapeCast Cert.ReferenceIdeal.S50000x1 (Cert.ReferenceIdeal.Read.val_main_v17 (F := Ideal) x1) h := by
  rw [dst_eq]
  unfold Cert.KernelIdeal.HostStretch.degreeCol Cert.ReferenceIdeal.Read.val_main_v17 Cert.ReferenceIdeal.Read.val_main_v15 Cert.ReferenceIdeal.Read.val_main_v16 Cert.ReferenceIdeal.Read.val_main_v14 Cert.ReferenceIdeal.Read.val_main_cst_2 Cert.ReferenceIdeal.Read.val_main_cst_1
  rw [scatterDeg_rec]

/-- The second neighbour sum: the gathered rows of the first hidden layer added into the destination rows. -/
theorem sums128_eq (x0 : (⟨Cert.ReferenceIdeal.S50000x256, .f32⟩ : BufTy).Contents (Elt Ideal)) (x1 : (⟨Cert.ReferenceIdeal.S2x800000, .i32⟩ : BufTy).Contents (Elt Ideal))
    (x2 : (⟨Cert.ReferenceIdeal.S128x256, .f32⟩ : BufTy).Contents (Elt Ideal)) (x3 : (⟨Cert.ReferenceIdeal.S128, .f32⟩ : BufTy).Contents (Elt Ideal))
    (x4 : (⟨Cert.ReferenceIdeal.S128x256, .f32⟩ : BufTy).Contents (Elt Ideal)) :
    Cert.KernelIdeal.HostStretch.added128 (Cert.KernelIdeal.HostStretch.dstIds x1)
        (Host.gather Cert.KernelIdeal.gather_S50000x128_S800000x1_S800000x128_1_0_n_n_0_1_1128
          (Cert.ReferenceIdeal.Read.val_main_v31 (F := Ideal) x0 x1 x2 x3 x4) (Cert.KernelIdeal.TakeFill.wrapCol (Cert.KernelIdeal.HostStretch.srcIds x1)))
      = Cert.ReferenceIdeal.Read.val_main_v41 (F := Ideal) x0 x1 x2 x3 x4 := by
  rw [src_eq, dst_eq, wrap_second, gather128_rec]
  unfold Cert.KernelIdeal.HostStretch.added128 Cert.ReferenceIdeal.Read.val_main_v41 Cert.ReferenceIdeal.Read.val_main_v38 Cert.ReferenceIdeal.Read.val_main_v39 Cert.ReferenceIdeal.Read.val_main_v40 Cert.ReferenceIdeal.Read.val_main_cst_6
  rw [scatter128_rec]

/-! ## The two results -/

/-- The kernel program's result, as a function of the arguments, is the reference's result. -/
theorem output_eq
    (x0 : (⟨Cert.ReferenceIdeal.S50000x256, .f32⟩ : BufTy).Contents (Elt Ideal)) (x1 : (⟨Cert.ReferenceIdeal.S2x800000, .i32⟩ : BufTy).Contents (Elt Ideal))
    (x2 : (⟨Cert.ReferenceIdeal.S128x256, .f32⟩ : BufTy).Contents (Elt Ideal)) (x3 : (⟨Cert.ReferenceIdeal.S128, .f32⟩ : BufTy).Contents (Elt Ideal))
    (x4 : (⟨Cert.ReferenceIdeal.S128x256, .f32⟩ : BufTy).Contents (Elt Ideal)) (x5 : (⟨Cert.ReferenceIdeal.S256x128, .f32⟩ : BufTy).Contents (Elt Ideal))
    (x6 : (⟨Cert.ReferenceIdeal.S256, .f32⟩ : BufTy).Contents (Elt Ideal)) (x7 : (⟨Cert.ReferenceIdeal.S256x128, .f32⟩ : BufTy).Contents (Elt Ideal))
    (x8 : (⟨Cert.ReferenceIdeal.S384x256, .f32⟩ : BufTy).Contents (Elt Ideal)) (x9 : (⟨Cert.ReferenceIdeal.S384, .f32⟩ : BufTy).Contents (Elt Ideal)) :
    Cert.KernelIdeal.Network.output x0 x1 x2 x3 x4 x5 x6 x7 x8 x9
      = Cert.ReferenceIdeal.Read.val_main_v64 (F := Ideal) x0 x1 x2 x3 x4 x5 x6 x7 x8 x9 := by
  have h : Cert.ReferenceIdeal.S50000.ShapeCasts Cert.ReferenceIdeal.S50000x1 := by decide
  -- the first layer of the kernel program is the reference's first hidden layer
  have hfirst : Cert.KernelIdeal.Network.firstLayer x0 x1 x2 x3 x4 = Cert.ReferenceIdeal.Read.val_main_v31 (F := Ideal) x0 x1 x2 x3 x4 := by
    rw [Cert.ReferenceIdeal.RefValue.hidden_eq x0 x1 x2 x3 x4 h]
    unfold Cert.KernelIdeal.Network.firstLayer
    rw [sums256_eq, degree_eq x1 h]
  rw [Cert.ReferenceIdeal.RefValue.out_eq x0 x1 x2 x3 x4 x5 x6 x7 x8 x9 h]
  unfold Cert.KernelIdeal.Network.output
  rw [hfirst, sums128_eq, degree_eq x1 h]

end Cert.Bridge

end
-- ==== Proof.SourceRange.lean ====
/-
  What the precondition says of the source node ids: every entry of row 0 of `edge_index` lies in `[0, 50000)`.
-/
import proofs.«422061_j76020921139986_1_alg».proof.Proof.Gen.Pre_finite_inputs
import Idealize.ShloMosaic.Lib.StableHlo.Predicate
import Idealize.ShloMosaic.Lib.ReduceAll
import Idealize.ShloMosaic.Lib.Pipeline.Value
import Idealize.ShloMosaic.Lib.ValueIdx

noncomputable section

open Idealize.ShloMosaic Idealize.ShloMosaic.ValueIdx

namespace Cert.Pre_finite_inputs.SourceRange

open Cert.Pre_finite_inputs Cert.Pre_finite_inputs.Gen

/-- The rank-0 shape has one index. -/
private instance : Subsingleton S_.Idx := ⟨fun a b => funext fun d => d.elim0⟩

/-- A word that is at least 0 and below 50000 as a signed word has an unsigned value below 50000. -/
private theorem toNat_lt_of_signed (w : BitVec 32) (h0 : IntOp.cmpi .sge w 0#32 = 1#1) (h1 : IntOp.cmpi .slt w 50000#32 = 1#1) :
    w.toNat < 50000 := by
  unfold IntOp.cmpi at h0 h1
  rw [StableHlo.Predicate.ofBool_eq_one_iff] at h0 h1
  simp only [BitVec.sle, BitVec.slt, decide_eq_true_eq] at h0 h1
  have z : (0#32 : BitVec 32).toInt = 0 := by decide
  have m : (50000#32 : BitVec 32).toInt = 50000 := by decide
  rw [z] at h0
  rw [m] at h1
  rw [BitVec.toInt_eq_toNat_cond] at h0 h1
  have hw := w.isLt
  split at h0 <;> omega

/-- If the precondition's predicate is 1, every source id (row 0 of the edge list, as a vector) is in `[0, 50000)`. -/
theorem src_lt (a0 : FVec Ideal S50000x256 .f32) (a1 : IVec S2x800000 32) (a2 : FVec Ideal S128x256 .f32) (a3 : FVec Ideal S128 .f32)
    (a4 : FVec Ideal S128x256 .f32) (a5 : FVec Ideal S256x128 .f32) (a6 : FVec Ideal S256 .f32) (a7 : FVec Ideal S256x128 .f32)
    (a8 : FVec Ideal S384x256 .f32) (a9 : FVec Ideal S384 .f32)
    (h : Cert.Pre_finite_inputs.fn (F := Ideal) a0 a1 a2 a3 a4 a5 a6 a7 a8 a9 = fun _ => 1#1) :
    ∀ e : S800000.Idx,
      (shapeCast S800000 (extractStridedSlice S1x800000 ![0, 0] a1 slices_S2x800000_S1x800000_0_0) shapeCasts_S1x800000_S800000 e).toNat < 50000 := by
  intro e
  have h0 := congrFun h ValueIdx.ix0
  dsimp only [fn, fn_part1, fn_part2, fn_part3] at h0
  -- the predicate is a conjunction whose last conjunct is the `all` of the range test
  obtain ⟨-, hR⟩ := IntOp.andi_eq_one.1 h0
  have he := Host.reduce_andi_all _ _ _ _ _ hR e
  -- at edge `e` the test is the conjunction of the two signed compares against broadcast constants
  obtain ⟨hge, hlt⟩ := IntOp.andi_eq_one.1 he
  exact toNat_lt_of_signed _ hge hlt

end Cert.Pre_finite_inputs.SourceRange

end
-- ==== Proof.LibPlainDot.lean ====
/-
  A plain matrix product on the host read at an index, at the ideal values, and the four index facts of a plain record.

  For dimension numbers `d` over shapes [M, K] × [K, N] → [M, N] with no batch axes, the left rows and the right columns
  kept, and the left operand's axis 1 contracted with the right operand's axis 0: the left index at output `(r, c)` and
  contraction position `q` is `(r, q)`, the right index is `(q, c)`; and jnp's `dot_general` read at `(p, o)` is
  `∑ k, A (p, k) · B (k, o)`, the library's sum over the record's contraction index set re-indexed by its one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainDot

variable {M K N : ℕ} (d : DotDims ⟨2, ![M, K]⟩ ⟨2, ![K, N]⟩ ⟨2, ![M, N]⟩)

/-- A plain record's left index keeps the output's row. -/
theorem lhs_row (hb : d.lhsBatch = []) (hn : d.lhsNonContracting = [0]) (i : (⟨2, ![M, N]⟩ : Shape).Idx) (q : d.contr.Idx) :
    (d.lhsIdx i q 0).val = (i 0).val := by
  unfold DotDims.lhsIdx
  rw [dif_neg (by rw [hb]; exact List.not_mem_nil), dif_pos (by rw [hn]; exact List.mem_singleton.mpr rfl)]
  simp only [Fin.val_cast]
  have key : ∀ (a b : Nat) (ha : a < 2) (hb' : b < 2), a = b →
      (i ⟨a, ha⟩).val = (i ⟨b, hb'⟩).val := fun a b ha hb' h => by subst h; rfl
  exact key _ _ _ _ (by simp [hb, hn])

/-- A plain record's right index keeps the output's column. -/
theorem rhs_col (hlb : d.lhsBatch = []) (hln : d.lhsNonContracting = [0]) (hb : d.rhsBatch = [])
    (hn : d.rhsNonContracting = [1]) (i : (⟨2, ![M, N]⟩ : Shape).Idx) (q : d.contr.Idx) :
    (d.rhsIdx i q 1).val = (i 1).val := by
  unfold DotDims.rhsIdx
  rw [dif_neg (by rw [hb]; exact List.not_mem_nil), dif_pos (by rw [hn]; exact List.mem_singleton.mpr rfl)]
  simp only [Fin.val_cast]
  have key : ∀ (a b : Nat) (ha : a < 2) (hb' : b < 2), a = b →
      (i ⟨a, ha⟩).val = (i ⟨b, hb'⟩).val := fun a b ha hb' h => by subst h; rfl
  exact key _ _ _ _ (by simp [hlb, hln, hn])

/-- The sum over a plain record's contraction index set, re-indexed by its one coordinate. -/
theorem contr_sum (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : (⟨2, ![M, K]⟩ : Shape).Idx → EReal) (B : (⟨2, ![K, N]⟩ : Shape).Idx → EReal) (p : Fin M) (o : Fin N) :
    ∑ k : d.contr.Idx, A (d.lhsIdx (ix2 p o) k) * B (d.rhsIdx (ix2 p o) k) = ∑ k : Fin K, A (ix2 p k) * B (ix2 k o) := by
  rw [← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

/-- jnp's `dot_general` of a plain record read at `(p, o)`. -/
theorem dotGeneral_apply {φ₁ φ₂ : FTy} (prec : Option ContractPrecision) (sched : HostSchedule)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.dotGeneral d prec sched A B (ix2 p o) = ∑ k : Fin K, A (ix2 p k) * B (ix2 k o) := by
  rw [Ideal.dotGeneral_apply]
  exact contr_sum d hr hs hl0 hl1 hr0 hr1 A B p o

end Cert.LibPlainDot

end
-- ==== Proof.lean ====
/-
  A two-layer graph network with mean aggregation and a last linear map, as a Pallas program against its jnp reference,
  over the extended reals.

  Per node i, with A the sum of the in-neighbours' feature rows, D the in-degree and X the node's own row, a layer is
    max ((∑ k, (A i k / max (D i) 1) · Wl o k) + (∑ k, X i k · Wr o k) + b o) 0;
  the network is two such layers (256 → 128 → 256 features) followed by (∑ c, h2 i c · Wp o c) + bp o.
  Both programs compute the neighbour sums and the degree by the same host operations (a gather of the source nodes'
  rows and a scatter-add into the destination nodes' rows); the kernel program computes each layer's dense part in a
  kernel region, 2000 nodes at a point of a 25-point grid, the reference by whole-array operations.  At the extended
  reals the kernel's narrowing to bf16 before its products is the identity, a product into a zero accumulator is the
  plain sum, and the reference's adding the bias before the node's own term is a regrouping of a three-term sum
  (commutativity and associativity only: finiteness of the inputs is never used).

  The one place the two differ as stated is the gather: the kernel program's take fills a row whose source id is
  outside [0, 50000) where the reference's indexing clamps it.  The precondition says every source id is a node id;
  then the take's range test passes on every edge and it is the plain gather.

  The kernel program's frames are the generated ones; the reference's frame is its generated run with the result
  dropped; the idealization rewrote nothing, so `preserves` is trivial; `algebraic` puts the kernel program's run,
  read back to the network function of its arguments (Proof/HostFold.lean over Proof/Layer1.lean and Proof/Layer2.lean),
  beside the reference's generated run, read as the same function (Proof/Bridge.lean over Proof/Reference.lean and
  Proof/ReferenceOut.lean).
-/
import proofs.«422061_j76020921139986_1_alg».proof.Defs
import proofs.«422061_j76020921139986_1_alg».proof.Proof.Gen.Kernel
import proofs.«422061_j76020921139986_1_alg».proof.Proof.Gen.Kernel.Skeleton
import proofs.«422061_j76020921139986_1_alg».proof.Proof.Gen.Kernel.Launch
import proofs.«422061_j76020921139986_1_alg».proof.Proof.Gen.Kernel.Points
import proofs.«422061_j76020921139986_1_alg».proof.Proof.Gen.Kernel.Frame
import proofs.«422061_j76020921139986_1_alg».proof.Proof.Gen.KernelIdeal
import proofs.«422061_j76020921139986_1_alg».proof.Proof.Gen.KernelIdeal.Skeleton
import proofs.«422061_j76020921139986_1_alg».proof.Proof.Gen.KernelIdeal.Launch
import proofs.«422061_j76020921139986_1_alg».proof.Proof.Gen.KernelIdeal.Points
import proofs.«422061_j76020921139986_1_alg».proof.Proof.Gen.KernelIdeal.Frame
import proofs.«422061_j76020921139986_1_alg».proof.Proof.Gen.ReferenceIdeal
import proofs.«422061_j76020921139986_1_alg».proof.Proof.Gen.ReferenceIdeal.Run
import proofs.«422061_j76020921139986_1_alg».proof.Proof.Gen.ReferenceIdeal.Read
import proofs.«422061_j76020921139986_1_alg».proof.Proof.Gen.Pre_finite_inputs
import proofs.«422061_j76020921139986_1_alg».proof.Proof.KernelRun
import proofs.«422061_j76020921139986_1_alg».proof.Proof.HostFold
import proofs.«422061_j76020921139986_1_alg».proof.Proof.Bridge
import proofs.«422061_j76020921139986_1_alg».proof.Proof.SourceRange
import proofs.«422061_j76020921139986_1_alg».proof.Proof.LibPlainDot
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read at the extended reals. -/
theorem frame_kernel_ideal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Under the precondition every source id of the launched edge list is a node id. -/
theorem source_ids_are_nodes (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ((Cert.KernelIdeal.HostFold.src m c) i).toNat < 50000 :=
  Cert.Pre_finite_inputs.SourceRange.src_lt _ _ _ _ _ _ _ _ _ _ (hpre c)

/-- From memories agreeing on the arguments both programs end with the network's output of those arguments: the
    kernel program's result buffer by the fold of its run, the reference's by its run read one operation at a time. -/
theorem algebraic : Cert.algebraic_KernelIdeal_ReferenceIdeal := by
  intro m ρ m' ρ' hpre hagree
  refine ⟨fun c => Cert.KernelIdeal.Network.output (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · refine (θ_run Cert.KernelIdeal.defs _ _).mono (fun r h c => ⟨(h c).1.trans ?_, (h c).2⟩)
      (Cert.KernelIdeal.Run.run (F := Ideal) m ρ)
    exact Cert.KernelIdeal.HostFold.result m ρ c (source_ids_are_nodes m hpre c)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v64_eq, h0, h1, h2, h3, h4, h5, h6, h7, h8, h9]
    exact (Cert.Bridge.output_eq _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
